-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S16x1024x2048 : S_.BroadcastsInDim S16x1024x2048 (![] : Fin 0 → Fin S16x1024x2048.rank)
  reducesTo_S16x1024x2048_S_d0_1_2 : S16x1024x2048.ReducesTo [0, 1, 2] S_
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn_part1 {F : FTy → Type} [FloatOps F] (main_arg5 : FVec F S1024x1024 .f32) (main_arg6 : FVec F S16x1024x2048 .f32) (main_arg7 : FVec F S16x2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S16x1024x2048 .f32 := Host.absf main_arg6
  let main_cst_8 : FVec F S_ .f32 := constant S_ .f32 0x7F800000#32
  let main_v25 : FVec F S16x1024x2048 .f32 := broadcastInDim S16x1024x2048 ![] bcast_S_S16x1024x2048 main_cst_8
  let main_v26 : IVec S16x1024x2048 1 := cmpf .olt main_v24 main_v25
  let main_c_9 : IVec S_ 1 := constantI S_ 1 1#1
  let main_v27 : IVec S_ 1 := (fun x v => Host.reduce IntOp.andi x v reducesTo_S16x1024x2048_S_d0_1_2 h_S_) main_v26 main_c_9
  let main_v28 : IVec S_ 1 := andi main_v23 main_v27
  let main_v29 : FVec F S16x2048x1024 .f32 := Host.absf main_arg7
  let main_cst_10 : FVec F S_ .f32 := constant S_ .f32 0x7F800000#32
  let main_v30 : FVec F S16x2048x1024 .f32 := broadcastInDim S16x2048x1024 ![] bcast_S_S16x2048x1024 main_cst_10
  let main_v31 : IVec S16x2048x1024 1 := cmpf .olt main_v29 main_v30
  let main_c_11 : IVec S_ 1 := constantI S_ 1 1#1
  let main_v32 : IVec S_ 1 := (fun x v => Host.reduce IntOp.andi x v reducesTo_S16x2048x1024_S_d0_1_2 h_S_) main_v31 main_c_11
  let main_v33 : IVec S_ 1 := andi main_v28 main_v32
  main_v33

def fn {F : FTy → Type} [FloatOps F] (main_arg0 : FVec F S8x2048x1024 .f32) (main_arg1 : IVec S8x2048 32) (main_arg2 : FVec F S8x1024 .f32) (main_arg3 : FVec F S1024 .f32) (main_arg4 : FVec F S1024 .f32) (main_arg5 : FVec F S1024x1024 .f32) (main_arg6 : FVec F S16x1024x2048 .f32) (main_arg7 : FVec F S16x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Kernel.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S16384 : Shape := ⟨1, ![16384]⟩
abbrev S_ : Shape := ⟨0, ![]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S16385x1024 : Shape := ⟨2, ![16385, 1024]⟩
abbrev S16x1024x1024 : Shape := ⟨3, ![16, 1024, 1024]⟩
abbrev S1x256x1024 : Shape := ⟨3, ![1, 256, 1024]⟩
abbrev S1x1024x2048 : Shape := ⟨3, ![1, 1024, 2048]⟩
abbrev S1x2048x1024 : Shape := ⟨3, ![1, 2048, 1024]⟩
abbrev S256x1024 : Shape := ⟨2, ![256, 1024]⟩
abbrev S1024x2048 : Shape := ⟨2, ![1024, 2048]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 129
  | .vmem => 15
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1024, .f32⟩
  | 4 => ⟨S1024, .f32⟩
  | 5 => ⟨S1024x1024, .f32⟩
  | 6 => ⟨S16x1024x2048, .f32⟩
  | 7 => ⟨S16x2048x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .f32⟩
  | 20 => ⟨S16384, .i32⟩
  | 21 => ⟨S_, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S16384x1, .i32⟩
  | 47 => ⟨S16, .i32⟩
  | 48 => ⟨S1x16, .i32⟩
  | 49 => ⟨S16384x16, .i32⟩
  | 50 => ⟨S16384x16, .i32⟩
  | 51 => ⟨S16384x16, .i1⟩
  | 52 => ⟨S16384x16, .i32⟩
  | 53 => ⟨S_, .i32⟩
  | 54 => ⟨S_, .i32⟩
  | 55 => ⟨S16384x16, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S16384x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1, .i32⟩
  | 76 => ⟨S_, .i32⟩
  | 77 => ⟨S16384x1, .i32⟩
  | 78 => ⟨S16384x1, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S_, .i32⟩
  | 91 => ⟨S_, .i32⟩
  | 92 => ⟨S16384, .i32⟩
  | 93 => ⟨S16384, .i32⟩
  | 94 => ⟨S16384x1024, .f32⟩
  | 95 => ⟨S16384x1024, .bf16⟩
  | 96 => ⟨S_, .bf16⟩
  | 97 => ⟨S16385x1024, .bf16⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16385x1024, .bf16⟩
  | 107 => ⟨S16384x1024, .bf16⟩
  | 108 => ⟨S16x1024x1024, .bf16⟩
  | 109 => ⟨S16x1024x1024, .f32⟩
  | 110 => ⟨S16384x1024, .f32⟩
  | 111 => ⟨S_, .f32⟩
  | 112 => ⟨S1x1024, .f32⟩
  | 113 => ⟨S16385x1024, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S16384x1024, .f32⟩
  | 123 => ⟨S8x2048x1024, .f32⟩
  | 124 => ⟨S1024x1024, .f32⟩
  | 125 => ⟨S16384x1024, .f32⟩
  | 126 => ⟨S16384x1024, .f32⟩
  | 127 => ⟨S16384x1024, .f32⟩
  | _ => ⟨S8x2048x1024, .f32⟩

abbrev hbmTy0_1 (i : Nat) : BufTy := match i % 128 with
  | 0 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_call0_c : Ref sig .tc := ⟨.hbm, 53, rfl⟩
abbrev main_call1_call0_v0 : Ref sig .tc := ⟨.hbm, 54, rfl⟩
abbrev main_v23 : Ref sig .tc := ⟨.hbm, 55, rfl⟩
abbrev main_v24 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_c_4 : Ref sig .tc := ⟨.hbm, 76, rfl⟩
abbrev main_call2_v14 : Ref sig .tc := ⟨.hbm, 77, rfl⟩
abbrev main_v25 : Ref sig .tc := ⟨.hbm, 78, rfl⟩
abbrev main_v26 : Ref sig .tc := ⟨.hbm, 79, rfl⟩
abbrev main_c_1 : Ref sig .tc := ⟨.hbm, 80, rfl⟩
abbrev main_v27 : Ref sig .tc := ⟨.hbm, 81, rfl⟩
abbrev main_v28 : Ref sig .tc := ⟨.hbm, 82, rfl⟩
abbrev main_c_2 : Ref sig .tc := ⟨.hbm, 83, rfl⟩
abbrev main_v29 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst : Ref sig .tc := ⟨.hbm, 96, rfl⟩
abbrev main_v37 : Ref sig .tc := ⟨.hbm, 97, rfl⟩
abbrev main_c_5 : Ref sig .tc := ⟨.hbm, 98, rfl⟩
abbrev main_v38 : Ref sig .tc := ⟨.hbm, 99, rfl⟩
abbrev main_v39 : Ref sig .tc := ⟨.hbm, 100, rfl⟩
abbrev main_c_6 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_7 : Ref sig .tc := ⟨.hbm, 111, rfl⟩
abbrev main_v49 : Ref sig .tc := ⟨.hbm, 112, rfl⟩
abbrev main_v50 : Ref sig .tc := ⟨.hbm, 113, rfl⟩
abbrev main_c_8 : Ref sig .tc := ⟨.hbm, 114, rfl⟩
abbrev main_v51 : Ref sig .tc := ⟨.hbm, 115, rfl⟩
abbrev main_v52 : Ref sig .tc := ⟨.hbm, 116, rfl⟩
abbrev main_c_9 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  bcast_S_S_ : S_.BroadcastsInDim S_ (![] : Fin 0 → Fin S_.rank)
  reduceWindows_S16384x16_S16384x16_w16384s1p16383_0_w1s1p0_0 : S16384x16.ReduceWindows (![16384, 1] : Fin 2 → Nat) ![1, 1] ![16383, 0] ![0, 0] S16384x16
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  shapeCasts_S8x2048x1024_S16384x1024 : S8x2048x1024.ShapeCasts S16384x1024
  bitsLt_bf16_f32 : FTy.bits .bf16 < FTy.bits .f32
  bcast_S_S16385x1024 : S_.BroadcastsInDim S16385x1024 (![] : Fin 0 → Fin S16385x1024.rank)
  slices_S16385x1024_S16384x1024_0_0 : S16385x1024.Slices ![0, 0] S16384x1024
  shapeCasts_S16384x1024_S16x1024x1024 : S16384x1024.ShapeCasts S16x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S256x1024_S1x256x1024 : S256x1024.ShapeCasts S1x256x1024
  shapeCasts_S16x1024x1024_S16384x1024 : S16x1024x1024.ShapeCasts S16384x1024
  bcast_S_S1x1024 : S_.BroadcastsInDim S1x1024 (![] : Fin 0 → Fin S1x1024.rank)
  concatenates_S16384x1024_S1x1024_S16385x1024_d0 : Shape.Concatenates [S16384x1024, S1x1024] S16385x1024 0
  shapeCasts_S16384x1024_S8x2048x1024 : S16384x1024.ShapeCasts S8x2048x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S16384x16_S16384x1x1_S16384x1_n_1_0_0_1_2_11_wf : GatherDims.WF S16384x16 S16384x1x1 S16384x1 [] [1] [0] [1] [0] 2 ![1, 1]
  scatter_S16385x1024_S16384x1_S16384x1024_1_0_0_1_wf : ScatterDims.WF S16385x1024 S16384x1 S16384x1024 [1] [0] [0] 1
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  gather_S16385x1024_S16384x1_S16384x1024_1_0_n_n_0_1_11024_wf : GatherDims.WF S16385x1024 S16384x1 S16384x1024 [1] [0] [] [0] [] 1 ![1, 1024]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .bf16 = 32 ∨ (Rect.block (s := S16x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x1024x2048.size a
  hwx0_1 : ∀ i : grid0.Coords, EltTy.bits .f32 = 32 ∨ (Rect.block (s := S16x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .f32 = 32 ∨ (Rect.block (s := S16x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .f32 = 32 ∨ (Rect.block (s := S16384x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def gather_S16384x16_S16384x1x1_S16384x1_n_1_0_0_1_2_11 : GatherDims S16384x16 S16384x1x1 S16384x1 where
  offsetDims := []
  collapsedSliceDims := [1]
  operandBatchingDims := [0]
  startIndicesBatchingDims := [0]
  startIndexMap := [1]
  indexVectorDim := 2
  sliceSizes := ![1, 1]
  wf := gather_S16384x16_S16384x1x1_S16384x1_n_1_0_0_1_2_11_wf
def scatter_S16385x1024_S16384x1_S16384x1024_1_0_0_1 : ScatterDims S16385x1024 S16384x1 S16384x1024 where
  updateWindowDims := [1]
  insertedWindowDims := [0]
  scatterDimsToOperandDims := [0]
  indexVectorDim := 1
  wf := scatter_S16385x1024_S16384x1_S16384x1024_1_0_0_1_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v46) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v60) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S16384 : Shape := ⟨1, ![16384]⟩
abbrev S_ : Shape := ⟨0, ![]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S16385x1024 : Shape := ⟨2, ![16385, 1024]⟩
abbrev S16x1024x1024 : Shape := ⟨3, ![16, 1024, 1024]⟩
abbrev S1x1024 : Shape := ⟨2, ![1, 1024]⟩

abbrev nBuf : Space → Nat
  | .hbm => 138
  | .vmem => 0
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1024, .f32⟩
  | 4 => ⟨S1024, .f32⟩
  | 5 => ⟨S1024x1024, .f32⟩
  | 6 => ⟨S16x1024x2048, .f32⟩
  | 7 => ⟨S16x2048x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .f32⟩
  | 20 => ⟨S16384, .i32⟩
  | 21 => ⟨S_, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S16384x1, .i32⟩
  | 47 => ⟨S16, .i32⟩
  | 48 => ⟨S1x16, .i32⟩
  | 49 => ⟨S16384x16, .i32⟩
  | 50 => ⟨S16384x16, .i32⟩
  | 51 => ⟨S16384x16, .i1⟩
  | 52 => ⟨S16384x16, .i32⟩
  | 53 => ⟨S_, .i32⟩
  | 54 => ⟨S_, .i32⟩
  | 55 => ⟨S16384x16, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S16384x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1, .i32⟩
  | 76 => ⟨S_, .i32⟩
  | 77 => ⟨S16384x1, .i32⟩
  | 78 => ⟨S16384x1, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S_, .i32⟩
  | 91 => ⟨S_, .i32⟩
  | 92 => ⟨S16384, .i32⟩
  | 93 => ⟨S16384, .i32⟩
  | 94 => ⟨S16384x1024, .f32⟩
  | 95 => ⟨S_, .f32⟩
  | 96 => ⟨S16385x1024, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16385x1024, .f32⟩
  | 106 => ⟨S16384x1024, .f32⟩
  | 107 => ⟨S16x1024x1024, .f32⟩
  | 108 => ⟨S16x1024x2048, .f32⟩
  | 109 => ⟨S_, .f32⟩
  | 110 => ⟨S16x1024x2048, .f32⟩
  | 111 => ⟨S16x1024x2048, .f32⟩
  | 112 => ⟨S16x1024x2048, .f32⟩
  | 113 => ⟨S16x1024x1024, .f32⟩
  | 114 => ⟨S16384x1024, .f32⟩
  | 115 => ⟨S_, .f32⟩
  | 116 => ⟨S1x1024, .f32⟩
  | 117 => ⟨S16385x1024, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S_, .f32⟩
  | 4 => ⟨S8x2048x1024, .f32⟩
  | 5 => ⟨S8x2048x1024, .f32⟩
  | 6 => ⟨S_, .f32⟩
  | 7 => ⟨S8x2048x1024, .f32⟩
  | 8 => ⟨S8x2048x1024, .f32⟩
  | 9 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_call0_c : Ref sig .tc := ⟨.hbm, 53, rfl⟩
abbrev main_call1_call0_v0 : Ref sig .tc := ⟨.hbm, 54, rfl⟩
abbrev main_v23 : Ref sig .tc := ⟨.hbm, 55, rfl⟩
abbrev main_v24 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_c_4 : Ref sig .tc := ⟨.hbm, 76, rfl⟩
abbrev main_call2_v14 : Ref sig .tc := ⟨.hbm, 77, rfl⟩
abbrev main_v25 : Ref sig .tc := ⟨.hbm, 78, rfl⟩
abbrev main_v26 : Ref sig .tc := ⟨.hbm, 79, rfl⟩
abbrev main_c_1 : Ref sig .tc := ⟨.hbm, 80, rfl⟩
abbrev main_v27 : Ref sig .tc := ⟨.hbm, 81, rfl⟩
abbrev main_v28 : Ref sig .tc := ⟨.hbm, 82, rfl⟩
abbrev main_c_2 : Ref sig .tc := ⟨.hbm, 83, rfl⟩
abbrev main_v29 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_v34 : Ref sig .tc := ⟨.hbm, 93, rfl⟩
abbrev main_v35 : Ref sig .tc := ⟨.hbm, 94, rfl⟩
abbrev main_cst : Ref sig .tc := ⟨.hbm, 95, rfl⟩
abbrev main_v36 : Ref sig .tc := ⟨.hbm, 96, rfl⟩
abbrev main_c_5 : Ref sig .tc := ⟨.hbm, 97, rfl⟩
abbrev main_v37 : Ref sig .tc := ⟨.hbm, 98, rfl⟩
abbrev main_v38 : Ref sig .tc := ⟨.hbm, 99, rfl⟩
abbrev main_c_6 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_call4_cst : Ref sig .tc := ⟨.hbm, 109, rfl⟩
abbrev main_call4_v0 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_7 : Ref sig .tc := ⟨.hbm, 115, rfl⟩
abbrev main_v51 : Ref sig .tc := ⟨.hbm, 116, rfl⟩
abbrev main_v52 : Ref sig .tc := ⟨.hbm, 117, rfl⟩
abbrev main_c_8 : Ref sig .tc := ⟨.hbm, 118, rfl⟩
abbrev main_v53 : Ref sig .tc := ⟨.hbm, 119, rfl⟩
abbrev main_v54 : Ref sig .tc := ⟨.hbm, 120, rfl⟩
abbrev main_c_9 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_cst_10 : Ref sig .tc := ⟨.hbm, 131, rfl⟩
abbrev main_v64 : Ref sig .tc := ⟨.hbm, 132, rfl⟩
abbrev main_v65 : Ref sig .tc := ⟨.hbm, 133, rfl⟩
abbrev main_cst_11 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  bcast_S_S_ : S_.BroadcastsInDim S_ (![] : Fin 0 → Fin S_.rank)
  reduceWindows_S16384x16_S16384x16_w16384s1p16383_0_w1s1p0_0 : S16384x16.ReduceWindows (![16384, 1] : Fin 2 → Nat) ![1, 1] ![16383, 0] ![0, 0] S16384x16
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  shapeCasts_S8x2048x1024_S16384x1024 : S8x2048x1024.ShapeCasts S16384x1024
  bcast_S_S16385x1024 : S_.BroadcastsInDim S16385x1024 (![] : Fin 0 → Fin S16385x1024.rank)
  slices_S16385x1024_S16384x1024_0_0 : S16385x1024.Slices ![0, 0] S16384x1024
  shapeCasts_S16384x1024_S16x1024x1024 : S16384x1024.ShapeCasts S16x1024x1024
  bcast_S_S16x1024x2048 : S_.BroadcastsInDim S16x1024x2048 (![] : Fin 0 → Fin S16x1024x2048.rank)
  shapeCasts_S16x1024x1024_S16384x1024 : S16x1024x1024.ShapeCasts S16384x1024
  bcast_S_S1x1024 : S_.BroadcastsInDim S1x1024 (![] : Fin 0 → Fin S1x1024.rank)
  concatenates_S16384x1024_S1x1024_S16385x1024_d0 : Shape.Concatenates [S16384x1024, S1x1024] S16385x1024 0
  shapeCasts_S16384x1024_S8x2048x1024 : S16384x1024.ShapeCasts S8x2048x1024
  bcast_S_S8x2048x1024 : S_.BroadcastsInDim S8x2048x1024 (![] : Fin 0 → Fin S8x2048x1024.rank)
  gather_S16384x16_S16384x1x1_S16384x1_n_1_0_0_1_2_11_wf : GatherDims.WF S16384x16 S16384x1x1 S16384x1 [] [1] [0] [1] [0] 2 ![1, 1]
  scatter_S16385x1024_S16384x1_S16384x1024_1_0_0_1_wf : ScatterDims.WF S16385x1024 S16384x1 S16384x1024 [1] [0] [0] 1
  dot_S16x1024x1024_S16x1024x2048_S16x1024x2048_2_1_1_2_0_0_wf : DotDims.WF S16x1024x1024 S16x1024x2048 S16x1024x2048 [2] [1] [1] [2] [0] [0]
  dot_S16x1024x2048_S16x2048x1024_S16x1024x1024_2_1_1_2_0_0_wf : DotDims.WF S16x1024x2048 S16x2048x1024 S16x1024x1024 [2] [1] [1] [2] [0] [0]
  gather_S16385x1024_S16384x1_S16384x1024_1_0_n_n_0_1_11024_wf : GatherDims.WF S16385x1024 S16384x1 S16384x1024 [1] [0] [] [0] [] 1 ![1, 1024]
  dot_S8x2048x1024_S1024x1024_S8x2048x1024_2_1_01_0_n_n_wf : DotDims.WF S8x2048x1024 S1024x1024 S8x2048x1024 [2] [1] [0, 1] [0] [] []

variable [Facts₀]

def gather_S16384x16_S16384x1x1_S16384x1_n_1_0_0_1_2_11 : GatherDims S16384x16 S16384x1x1 S16384x1 where
  offsetDims := []
  collapsedSliceDims := [1]
  operandBatchingDims := [0]
  startIndicesBatchingDims := [0]
  startIndexMap := [1]
  indexVectorDim := 2
  sliceSizes := ![1, 1]
  wf := gather_S16384x16_S16384x1x1_S16384x1_n_1_0_0_1_2_11_wf
def scatter_S16385x1024_S16384x1_S16384x1024_1_0_0_1 : ScatterDims S16385x1024 S16384x1 S16384x1024 where
  updateWindowDims := [1]
  insertedWindowDims := [0]
  scatterDimsToOperandDims := [0]
  indexVectorDim := 1
  wf := scatter_S16385x1024_S16384x1_S16384x1024_1_0_0_1_wf
def dot_S16x1024x1024_S16x1024x2048_S16x1024x2048_2_1_1_2_0_0 : DotDims S16x1024x1024 S16x1024x2048 S16x1024x2048 where
  lhsContracting := [2]
  rhsContracting := [1]
  lhsNonContracting := [1]
  rhsNonContracting := [2]
  lhsBatch := [0]
  rhsBatch := [0]
  wf := dot_S16x1024x1024_S16x1024x2048_S16x1024x2048_2_1_1_2_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.RefOps.lean ====
/- The reference program's host operations as lists, stretch by stretch, with the outlined functions' operations inline at
   their calls: the token-shift mix and the hash routing (stretches 0 to 7), the dispatch into the experts' buffer (8), and the two
   batched products with the squared rectifier between, the combine and the receptance gate (9). A table, no argument. -/
import proofs.«135018_j10591389352191_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Stretch 0: 17 operations, in order. -/
abbrev r0 : List (HloOp τ sig (Elt F)) :=
  [ StableHlo.unary main_arg2 main_v0 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_arg0 main_v1 ((extractStridedSlice S8x2047x1024 ![0, 0, 0] · slices_S8x2048x1024_S8x2047x1024_0_0_0) : (⟨S8x2048x1024, .f32⟩ : BufTy).Contents (Elt F) → (⟨S8x2047x1024, .f32⟩ : BufTy).Contents (Elt F)),
    StableHlo.binary main_v0 main_v1 main_v2 ((fun a b => concatenate S8x2048x1024 1 [⟨S8x1x1024, a⟩, ⟨S8x2047x1024, b⟩] concatenates_S8x1x1024_S8x2047x1024_S8x2048x1024_d1) : (⟨S8x1x1024, .f32⟩ : BufTy).Contents (Elt F) → (⟨S8x2047x1024, .f32⟩ : BufTy).Contents (Elt F) → (⟨S8x2048x1024, .f32⟩ : BufTy).Contents (Elt F)),
    StableHlo.binary main_v2 main_arg0 main_v3 (subf : (⟨S8x2048x1024, .f32⟩ : BufTy).Contents (Elt F) → (⟨S8x2048x1024, .f32⟩ : BufTy).Contents (Elt F) → (⟨S8x2048x1024, .f32⟩ : BufTy).Contents (Elt F)),
    StableHlo.unary main_arg3 main_v4 (broadcastInDim S1x1x1024 ![2] bcast_S1024_S1x1x1024_2 : (⟨S1024, .f32⟩ : BufTy).Contents (Elt F) → (⟨S1x1x1024, .f32⟩ : BufTy).Contents (Elt F)),
    StableHlo.unary main_v4 main_v5 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v5 main_v6 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v6 main_v7 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_arg4 main_v8 (broadcastInDim S1x1x1024 ![2] bcast_S1024_S1x1x1024_2 : (⟨S1024, .f32⟩ : BufTy).Contents (Elt F) → (⟨S1x1x1024, .f32⟩ : BufTy).Contents (Elt F)),
    StableHlo.unary main_v8 main_v9 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v9 main_v10 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v10 main_v11 (addf : (⟨S8x2048x1024, .f32⟩ : BufTy).Contents (Elt F) → (⟨S8x2048x1024, .f32⟩ : BufTy).Contents (Elt F) → (⟨S8x2048x1024, .f32⟩ : BufTy).Contents (Elt F)),
    StableHlo.reshape main_arg1 main_v12 rfl shapeCasts_S8x2048_S16384,
    StableHlo.nullary main_c (constantI S_ 32 5099#32),
    StableHlo.unary main_c main_v13 (broadcastInDim S16384 ![] bcast_S_S16384 : (⟨S_, .i32⟩ : BufTy).Contents (Elt F) → (⟨S16384, .i32⟩ : BufTy).Contents (Elt F)),
    StableHlo.binary main_v12 main_v13 main_v14 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 16#32) ]
theorem r0_sub : (r0 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub ..⟩

/-- Stretch 1: 21 operations, in order. -/
abbrev r1 : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S16384, .i32⟩) (broadcastInDim S16384 ![] bcast_S_S16384),
    StableHlo.TRef.binary (.of main_v14 : StableHlo.TRef sig ⟨S16384, .i32⟩) (.of main_call0_v3 : StableHlo.TRef sig ⟨S16384, .i32⟩) (.of main_call0_v4 : StableHlo.TRef sig ⟨S16384, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16384, .i32⟩) (broadcastInDim S16384 ![] bcast_S_S16384),
    StableHlo.TRef.binary (.of main_call0_v4 : StableHlo.TRef sig ⟨S16384, .i32⟩) (.of main_call0_v5 : StableHlo.TRef sig ⟨S16384, .i32⟩) (.of main_call0_v6 : StableHlo.TRef sig ⟨S16384, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16384, .i32⟩) (broadcastInDim S16384 ![] bcast_S_S16384),
    StableHlo.TRef.binary (.of main_call0_v4 : StableHlo.TRef sig ⟨S16384, .i32⟩) (.of main_call0_v7 : StableHlo.TRef sig ⟨S16384, .i32⟩) (.of main_call0_v8 : StableHlo.TRef sig ⟨S16384, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16384, .i1⟩) (broadcastInDim S16384 ![] bcast_S_S16384),
    StableHlo.TRef.binary (.of main_call0_v8 : StableHlo.TRef sig ⟨S16384, .i1⟩) (.of main_call0_v10 : StableHlo.TRef sig ⟨S16384, .i1⟩) (.of main_call0_v11 : StableHlo.TRef sig ⟨S16384, .i1⟩) (cmpi .ne),
    StableHlo.TRef.binary (.of main_call0_v11 : StableHlo.TRef sig ⟨S16384, .i1⟩) (.of main_call0_v6 : StableHlo.TRef sig ⟨S16384, .i1⟩) (.of main_call0_v12 : StableHlo.TRef sig ⟨S16384, .i1⟩) andi,
    StableHlo.TRef.unary main_call0_call0.v0 (.of main_call0_v13 : StableHlo.TRef sig ⟨S16384, .i32⟩) (broadcastInDim S16384 ![] bcast_S_S16384),
    StableHlo.TRef.binary (.of main_call0_v4 : StableHlo.TRef sig ⟨S16384, .i32⟩) (.of main_call0_v13 : StableHlo.TRef sig ⟨S16384, .i32⟩) (.of main_call0_v14 : StableHlo.TRef sig ⟨S16384, .i32⟩) addi,
    StableHlo.TRef.ternary (.of main_call0_v12 : StableHlo.TRef sig ⟨S16384, .i1⟩) (.of main_call0_v14 : StableHlo.TRef sig ⟨S16384, .i32⟩) (.of main_call0_v4 : StableHlo.TRef sig ⟨S16384, .i32⟩) (.of main_v15 : StableHlo.TRef sig ⟨S16384, .i32⟩) select ]
theorem r1_sub : (r1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 2: 7 operations, in order. -/
abbrev r2 : List (HloOp τ sig (Elt F)) :=
  [ StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.nullary main_v17 (iotaInDim S16 32 0),
    StableHlo.unary main_v17 main_v18 (broadcastInDim S1x16 ![1] bcast_S16_S1x16_1 : (⟨S16, .i32⟩ : BufTy).Contents (Elt F) → (⟨S1x16, .i32⟩ : BufTy).Contents (Elt F)),
    StableHlo.unary main_v16 main_v19 (broadcastInDim S16384x16 ![0, 1] bcast_S16384x1_S16384x16_0_1 : (⟨S16384x1, .i32⟩ : BufTy).Contents (Elt F) → (⟨S16384x16, .i32⟩ : BufTy).Contents (Elt F)),
    StableHlo.unary main_v18 main_v20 (broadcastInDim S16384x16 ![0, 1] bcast_S1x16_S16384x16_0_1 : (⟨S1x16, .i32⟩ : BufTy).Contents (Elt F) → (⟨S16384x16, .i32⟩ : BufTy).Contents (Elt F)),
    StableHlo.binary main_v19 main_v20 main_v21 (cmpi .eq : (⟨S16384x16, .i32⟩ : BufTy).Contents (Elt F) → (⟨S16384x16, .i32⟩ : BufTy).Contents (Elt F) → (⟨S16384x16, .i1⟩ : BufTy).Contents (Elt F)),
    StableHlo.unary main_v21 main_v22 ((extui 32 · natLt_1_32) : (⟨S16384x16, .i1⟩ : BufTy).Contents (Elt F) → (⟨S16384x16, .i32⟩ : BufTy).Contents (Elt F)) ]
theorem r2_sub : (r2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.binary_bufs_sub .., StableHlo.unary_bufs_sub ..⟩

/-- Stretch 3: 3 operations, in order. -/
abbrev r3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v22 : StableHlo.TRef sig ⟨S16384x16, .i32⟩) (.of main_call1_call0_v0 : StableHlo.TRef sig ⟨S_, .i32⟩) (.of main_v23 : StableHlo.TRef sig ⟨S16384x16, .i32⟩) (fun x v => Host.reduceWindow IntOp.addi ![16384, 1] ![1, 1] ![16383, 0] ![0, 0] x v reduceWindows_S16384x16_S16384x16_w16384s1p16383_0_w1s1p0_0 h_S_) ]
theorem r3_sub : (r3 : List (HloOp τ sig (Elt F))).Forall fun op => op.bufs ⊆ StableHlo.tcRefs τ sig :=
  ⟨StableHlo.nullary_bufs_sub .., StableHlo.unary_bufs_sub .., StableHlo.binary_bufs_sub ..⟩

/-- Stretch 4: 1 operations, in order. -/
abbrev r4 : List (HloOp τ sig (Elt F)) :=
  [ StableHlo.unary main_v15 main_v24 (broadcastInDim S16384x1 ![0] bcast_S16384_S16384x1_0 : (⟨S16384, .i32⟩ : BufTy).Contents (Elt F) → (⟨S16384x1, .i32⟩ : BufTy).Contents (Elt F)) ]
theorem r4_sub : (r4 : List (HloOp τ sig (Elt F))).Forall fun op => op.bufs ⊆ StableHlo.tcRefs τ sig :=
  StableHlo.unary_bufs_sub ..

/-- Stretch 5: 22 operations, in order. -/
abbrev r5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16384x1, .i32⟩) (broadcastInDim S16384x1 ![] bcast_S_S16384x1),
    StableHlo.TRef.binary (.of main_v24 : StableHlo.TRef sig ⟨S16384x1, .i32⟩) (.of main_call2_v0 : StableHlo.TRef sig ⟨S16384x1, .i32⟩) (.of main_call2_v1 : StableHlo.TRef sig ⟨S16384x1, .i1⟩) (cmpi .slt),
    StableHlo.TRef.nullary (.of main_call2_c_0 : StableHlo.TRef sig ⟨S_, .i32⟩) (constantI S_ 32 16#32),
    StableHlo.TRef.unary (.of main_call2_c_0 : StableHlo.TRef sig ⟨S_, .i32⟩) (.of main_call2_v2 : StableHlo.TRef sig ⟨S16384x1, .i32⟩) (broadcastInDim S16384x1 ![] bcast_S_S16384x1),
    StableHlo.TRef.binary (.of main_v24 : StableHlo.TRef sig ⟨S16384x1, .i32⟩) (.of main_call2_v2 : StableHlo.TRef sig ⟨S16384x1, .i32⟩) (.of main_call2_v3 : StableHlo.TRef sig ⟨S16384x1, .i32⟩) addi,
    StableHlo.TRef.ternary (.of main_call2_v1 : StableHlo.TRef sig ⟨S16384x1, .i1⟩) (.of main_call2_v3 : StableHlo.TRef sig ⟨S16384x1, .i32⟩) (.of main_v24 : StableHlo.TRef sig ⟨S16384x1, .i32⟩) (.of main_call2_v4 : StableHlo.TRef sig ⟨S16384x1, .i32⟩) select,
    StableHlo.TRef.reshape (.of main_call2_v4 : StableHlo.TRef sig ⟨S16384x1, .i32⟩) (.of main_call2_v5 : StableHlo.TRef sig ⟨S16384x1x1, .i32⟩) rfl shapeCasts_S16384x1_S16384x1x1,
    StableHlo.TRef.nullary (.of main_call2_c_1 : StableHlo.TRef sig ⟨S1, .i32⟩) (constantI S1 32 15#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16384x1x1, .i32⟩) (broadcastInDim S16384x1x1 ![] bcast_S_S16384x1x1),
    StableHlo.TRef.binary (.of main_call2_v5 : StableHlo.TRef sig ⟨S16384x1x1, .i32⟩) (.of main_call2_v6 : StableHlo.TRef sig ⟨S16384x1x1, .i32⟩) (.of main_call2_v7 : StableHlo.TRef sig ⟨S16384x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S16384x1x1, .i32⟩) (broadcastInDim S16384x1x1 ![0, 1, 2] bcast_S1x1x1_S16384x1x1_0_1_2),
    StableHlo.TRef.binary (.of main_call2_v5 : StableHlo.TRef sig ⟨S16384x1x1, .i32⟩) (.of main_call2_v9 : StableHlo.TRef sig ⟨S16384x1x1, .i32⟩) (.of main_call2_v10 : StableHlo.TRef sig ⟨S16384x1x1, .i1⟩) (cmpi .sle),
    StableHlo.TRef.binary (.of main_call2_v7 : StableHlo.TRef sig ⟨S16384x1x1, .i1⟩) (.of main_call2_v10 : StableHlo.TRef sig ⟨S16384x1x1, .i1⟩) (.of main_call2_v11 : StableHlo.TRef sig ⟨S16384x1x1, .i1⟩) andi,
    StableHlo.TRef.nullary (.of main_call2_c_3 : StableHlo.TRef sig ⟨S_, .i1⟩) (constantI S_ 1 1#1),
    StableHlo.TRef.binary (.of main_call2_v11 : StableHlo.TRef sig ⟨S16384x1x1, .i1⟩) (.of main_call2_c_3 : StableHlo.TRef sig ⟨S_, .i1⟩) (.of main_call2_v12 : StableHlo.TRef sig ⟨S16384x1, .i1⟩) (fun x v => Host.reduce IntOp.andi x v reducesTo_S16384x1x1_S16384x1_d2 h_S_),
    StableHlo.TRef.binary (.of main_v23 : StableHlo.TRef sig ⟨S16384x16, .i32⟩) (.of main_call2_v5 : StableHlo.TRef sig ⟨S16384x1x1, .i32⟩) (.of main_call2_v13 : StableHlo.TRef sig ⟨S16384x1, .i32⟩) (fun x i => Host.gather gather_S16384x16_S16384x1x1_S16384x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S16384x1, .i32⟩) (broadcastInDim S16384x1 ![] bcast_S_S16384x1),
    StableHlo.TRef.ternary (.of main_call2_v12 : StableHlo.TRef sig ⟨S16384x1, .i1⟩) (.of main_call2_v13 : StableHlo.TRef sig ⟨S16384x1, .i32⟩) (.of main_call2_v14 : StableHlo.TRef sig ⟨S16384x1, .i32⟩) (.of main_v25 : StableHlo.TRef sig ⟨S16384x1, .i32⟩) select ]
theorem r5_sub : (r5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Stretch 6: 12 operations, in order. -/
abbrev r6 : List (HloOp τ sig (Elt F)) :=
  [ StableHlo.reshape main_v25 main_v26 rfl shapeCasts_S16384x1_S16384,
    StableHlo.nullary main_c_1 (constantI S_ 32 1#32),
    StableHlo.unary main_c_1 main_v27 (broadcastInDim S16384 ![] bcast_S_S16384 : (⟨S_, .i32⟩ : BufTy).Contents (Elt F) → (⟨S16384, .i32⟩ : BufTy).Contents (Elt F)),
    StableHlo.binary main_v26 main_v27 main_v28 (subi : (⟨S16384, .i32⟩ : BufTy).Contents (Elt F) → (⟨S16384, .i32⟩ : BufTy).Contents (Elt F) → (⟨S16384, .i32⟩ : BufTy).Contents (Elt F)),
    StableHlo.nullary main_c_2 (constantI S_ 32 1024#32),
    StableHlo.unary main_c_2 main_v29 (broadcastInDim S16384 ![] bcast_S_S16384 : (⟨S_, .i32⟩ : BufTy).Contents (Elt F) → (⟨S16384, .i32⟩ : BufTy).Contents (Elt F)),
    StableHlo.binary main_v28 main_v29 main_v30 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 1024#32),
    StableHlo.unary main_c_3 main_v31 (broadcastInDim S16384 ![] bcast_S_S16384 : (⟨S_, .i32⟩ : BufTy).Contents (Elt F) → (⟨S16384, .i32⟩ : BufTy).Contents (Elt F)),
    StableHlo.binary main_v15 main_v31 main_v32 (muli : (⟨S16384, .i32⟩ : BufTy).Contents (Elt F) → (⟨S16384, .i32⟩ : BufTy).Contents (Elt F) → (⟨S16384, .i32⟩ : BufTy).Contents (Elt F)),
    StableHlo.binary main_v32 main_v28 main_v33 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32) ]
theorem r6_sub : (r6 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- Stretch 7: 3 operations, in order. -/
abbrev r7 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.ternary (.of main_v30 : StableHlo.TRef sig ⟨S16384, .i1⟩) (.of main_v33 : StableHlo.TRef sig ⟨S16384, .i32⟩) (.of main_call3_v1 : StableHlo.TRef sig ⟨S16384, .i32⟩) (.of main_v34 : StableHlo.TRef sig ⟨S16384, .i32⟩) select ]
theorem r7_sub : (r7 : List (HloOp τ sig (Elt F))).Forall fun op => op.bufs ⊆ StableHlo.tcRefs τ sig :=
  ⟨StableHlo.unary_bufs_sub .., StableHlo.unary_bufs_sub .., StableHlo.ternary_bufs_sub ..⟩

/-- Stretch 8: 14 operations, in order. -/
abbrev r8 : List (HloOp τ sig (Elt F)) :=
  [ StableHlo.reshape main_v7 main_v35 rfl shapeCasts_S8x2048x1024_S16384x1024,
    StableHlo.nullary main_cst (constant S_ .f32 0x00000000#32),
    StableHlo.unary main_cst main_v36 (broadcastInDim S16385x1024 ![] bcast_S_S16385x1024 : (⟨S_, .f32⟩ : BufTy).Contents (Elt F) → (⟨S16385x1024, .f32⟩ : BufTy).Contents (Elt F)),
    StableHlo.nullary main_c_5 (constantI S_ 32 0#32),
    StableHlo.unary main_c_5 main_v37 (broadcastInDim S16384 ![] bcast_S_S16384 : (⟨S_, .i32⟩ : BufTy).Contents (Elt F) → (⟨S16384, .i32⟩ : BufTy).Contents (Elt F)),
    StableHlo.binary main_v34 main_v37 main_v38 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v39 (broadcastInDim S16384 ![] bcast_S_S16384 : (⟨S_, .i32⟩ : BufTy).Contents (Elt F) → (⟨S16384, .i32⟩ : BufTy).Contents (Elt F)),
    StableHlo.binary main_v34 main_v39 main_v40 (addi : (⟨S16384, .i32⟩ : BufTy).Contents (Elt F) → (⟨S16384, .i32⟩ : BufTy).Contents (Elt F) → (⟨S16384, .i32⟩ : BufTy).Contents (Elt F)),
    StableHlo.ternary main_v38 main_v40 main_v34 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v41 main_v42 (broadcastInDim S16384x1 ![0] bcast_S16384_S16384x1_0 : (⟨S16384, .i32⟩ : BufTy).Contents (Elt F) → (⟨S16384x1, .i32⟩ : BufTy).Contents (Elt F)),
    StableHlo.ternary main_v36 main_v42 main_v35 main_v43 ((fun x i u => Host.scatter scatter_S16385x1024_S16384x1_S16384x1024_1_0_0_1 (fun _ b => b) x i u) : (⟨S16385x1024, .f32⟩ : BufTy).Contents (Elt F) → (⟨S16384x1, .i32⟩ : BufTy).Contents (Elt F) → (⟨S16384x1024, .f32⟩ : BufTy).Contents (Elt F) → (⟨S16385x1024, .f32⟩ : BufTy).Contents (Elt F)),
    StableHlo.unary main_v43 main_v44 ((extractStridedSlice S16384x1024 ![0, 0] · slices_S16385x1024_S16384x1024_0_0) : (⟨S16385x1024, .f32⟩ : BufTy).Contents (Elt F) → (⟨S16384x1024, .f32⟩ : BufTy).Contents (Elt F)),
    StableHlo.reshape main_v44 main_v45 rfl shapeCasts_S16384x1024_S16x1024x1024 ]
theorem r8_sub : (r8 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub ..⟩

/-- Stretch 9: 30 operations, in order. -/
abbrev r9 : List (HloOp τ sig (Elt F)) :=
  [ StableHlo.binary main_v45 main_arg6 main_v46 ((fun l r => Host.dotGeneral dot_S16x1024x1024_S16x1024x2048_S16x1024x2048_2_1_1_2_0_0 none l r) : (⟨S16x1024x1024, .f32⟩ : BufTy).Contents (Elt F) → (⟨S16x1024x2048, .f32⟩ : BufTy).Contents (Elt F) → (⟨S16x1024x2048, .f32⟩ : BufTy).Contents (Elt F)),
    StableHlo.TRef.nullary main_call4.cst (constant S_ .f32 0x00000000#32),
    StableHlo.TRef.unary main_call4.cst main_call4.v0 (broadcastInDim S16x1024x2048 ![] bcast_S_S16x1024x2048),
    StableHlo.TRef.binary (.of main_v46) main_call4.v0 main_call4.v1 maximumf,
    StableHlo.binary main_v47 main_v47 main_v48 (mulf : (⟨S16x1024x2048, .f32⟩ : BufTy).Contents (Elt F) → (⟨S16x1024x2048, .f32⟩ : BufTy).Contents (Elt F) → (⟨S16x1024x2048, .f32⟩ : BufTy).Contents (Elt F)),
    StableHlo.binary main_v48 main_arg7 main_v49 ((fun l r => Host.dotGeneral dot_S16x1024x2048_S16x2048x1024_S16x1024x1024_2_1_1_2_0_0 none l r) : (⟨S16x1024x2048, .f32⟩ : BufTy).Contents (Elt F) → (⟨S16x2048x1024, .f32⟩ : BufTy).Contents (Elt F) → (⟨S16x1024x1024, .f32⟩ : BufTy).Contents (Elt F)),
    StableHlo.reshape main_v49 main_v50 rfl shapeCasts_S16x1024x1024_S16384x1024,
    StableHlo.nullary main_cst_7 (constant S_ .f32 0x00000000#32),
    StableHlo.unary main_cst_7 main_v51 (broadcastInDim S1x1024 ![] bcast_S_S1x1024 : (⟨S_, .f32⟩ : BufTy).Contents (Elt F) → (⟨S1x1024, .f32⟩ : BufTy).Contents (Elt F)),
    StableHlo.binary main_v50 main_v51 main_v52 ((fun a b => concatenate S16385x1024 0 [⟨S16384x1024, a⟩, ⟨S1x1024, b⟩] concatenates_S16384x1024_S1x1024_S16385x1024_d0) : (⟨S16384x1024, .f32⟩ : BufTy).Contents (Elt F) → (⟨S1x1024, .f32⟩ : BufTy).Contents (Elt F) → (⟨S16385x1024, .f32⟩ : BufTy).Contents (Elt F)),
    StableHlo.nullary main_c_8 (constantI S_ 32 0#32),
    StableHlo.unary main_c_8 main_v53 (broadcastInDim S16384 ![] bcast_S_S16384 : (⟨S_, .i32⟩ : BufTy).Contents (Elt F) → (⟨S16384, .i32⟩ : BufTy).Contents (Elt F)),
    StableHlo.binary main_v34 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v55 (broadcastInDim S16384 ![] bcast_S_S16384 : (⟨S_, .i32⟩ : BufTy).Contents (Elt F) → (⟨S16384, .i32⟩ : BufTy).Contents (Elt F)),
    StableHlo.binary main_v34 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v34 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v58 (broadcastInDim S16384x1 ![0] bcast_S16384_S16384x1_0 : (⟨S16384, .i32⟩ : BufTy).Contents (Elt F) → (⟨S16384x1, .i32⟩ : BufTy).Contents (Elt F)),
    StableHlo.binary main_v52 main_v58 main_v59 ((fun x i => Host.gather gather_S16385x1024_S16384x1_S16384x1024_1_0_n_n_0_1_11024 x i) : (⟨S16385x1024, .f32⟩ : BufTy).Contents (Elt F) → (⟨S16384x1, .i32⟩ : BufTy).Contents (Elt F) → (⟨S16384x1024, .f32⟩ : BufTy).Contents (Elt F)),
    StableHlo.reshape main_v59 main_v60 rfl shapeCasts_S16384x1024_S8x2048x1024,
    StableHlo.binary main_v11 main_arg5 main_v61 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.unary main_v61 main_v62 (Host.negf : (⟨S8x2048x1024, .f32⟩ : BufTy).Contents (Elt F) → (⟨S8x2048x1024, .f32⟩ : BufTy).Contents (Elt F)),
    StableHlo.unary main_v62 main_v63 (Host.exp : (⟨S8x2048x1024, .f32⟩ : BufTy).Contents (Elt F) → (⟨S8x2048x1024, .f32⟩ : BufTy).Contents (Elt F)),
    StableHlo.nullary main_cst_10 (constant S_ .f32 0x3F800000#32),
    StableHlo.unary main_cst_10 main_v64 (broadcastInDim S8x2048x1024 ![] bcast_S_S8x2048x1024 : (⟨S_, .f32⟩ : BufTy).Contents (Elt F) → (⟨S8x2048x1024, .f32⟩ : BufTy).Contents (Elt F)),
    StableHlo.binary main_v64 main_v63 main_v65 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_11 (constant S_ .f32 0x3F800000#32),
    StableHlo.unary main_cst_11 main_v66 (broadcastInDim S8x2048x1024 ![] bcast_S_S8x2048x1024 : (⟨S_, .f32⟩ : BufTy).Contents (Elt F) → (⟨S8x2048x1024, .f32⟩ : BufTy).Contents (Elt F)),
    StableHlo.binary main_v66 main_v65 main_v67 (Host.divf : (⟨S8x2048x1024, .f32⟩ : BufTy).Contents (Elt F) → (⟨S8x2048x1024, .f32⟩ : BufTy).Contents (Elt F) → (⟨S8x2048x1024, .f32⟩ : BufTy).Contents (Elt F)),
    StableHlo.binary main_v67 main_v60 main_v68 (mulf : (⟨S8x2048x1024, .f32⟩ : BufTy).Contents (Elt F) → (⟨S8x2048x1024, .f32⟩ : BufTy).Contents (Elt F) → (⟨S8x2048x1024, .f32⟩ : BufTy).Contents (Elt F)) ]
theorem r9_sub : (r9 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

end Cert.ReferenceIdeal.Ops

end
-- ==== Proof.RefRun.lean ====
/-
  The reference program's run: @main is its host operations in order (the outlined functions' bodies at their calls),
  so every weakly fair execution terminates with each buffer at the fold of the operations' results over the launch
  contents, and no operation writes an argument array.
-/
import proofs.«135018_j10591389352191_1_alg».proof.Proof.RefOps
import Idealize.ShloMosaic.Lib.StableHlo.Run

noncomputable section

namespace Cert.ReferenceIdeal.HostRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- Operations run one list after another fold as the concatenated list. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- @main's operations, the ten stretches in order. -/
abbrev ops : List (HloOp τ sig (Elt F)) :=
  r0 ++ (r1 ++ (r2 ++ (r3 ++ (r4 ++ (r5 ++ (r6 ++ (r7 ++ (r8 ++ (r9)))))))))

set_option maxRecDepth 16384 in
set_option maxHeartbeats 4000000 in
/-- @main is that straight line: the functions' definitions unfolded at their calls and the records at their fields,
    both sides are one chain of host steps once sequencing is reassociated. -/
theorem main_eq (c : Dev nD) : main (F := F) c = seq ops := by
  simp only [main, main_part0, main_part1, fn_remainder.body, fn_where.body, fn_cumsum.body, fn_cumsum_0.body,
    fn_take_along_axis.body, fn_where_1.body, fn_relu.body, ops, r0, r1, r2, r3, r4, r5, r6, r7, r8, r9, List.cons_append, List.nil_append,
    seq, bind_assoc, pure_bind]

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

/-- Membership in the concatenation is membership in one of the stretches. -/
theorem mem_ops {op : HloOp τ sig (Elt F)} (h : op ∈ (ops : List (HloOp τ sig (Elt F)))) :
    op ∈ (r0 : List (HloOp τ sig (Elt F))) ∨ op ∈ (r1 : List (HloOp τ sig (Elt F))) ∨ op ∈ (r2 : List (HloOp τ sig (Elt F))) ∨ op ∈ (r3 : List (HloOp τ sig (Elt F))) ∨ op ∈ (r4 : List (HloOp τ sig (Elt F))) ∨ op ∈ (r5 : List (HloOp τ sig (Elt F))) ∨ op ∈ (r6 : List (HloOp τ sig (Elt F))) ∨ op ∈ (r7 : List (HloOp τ sig (Elt F))) ∨ op ∈ (r8 : List (HloOp τ sig (Elt F))) ∨ op ∈ (r9 : List (HloOp τ sig (Elt F))) := by
  simpa only [ops, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h
    · exact (List.forall_iff_forall_mem.mp r0_sub) op h
    · exact (List.forall_iff_forall_mem.mp r1_sub) op h
    · exact (List.forall_iff_forall_mem.mp r2_sub) op h
    · exact (List.forall_iff_forall_mem.mp r3_sub) op h
    · exact (List.forall_iff_forall_mem.mp r4_sub) op h
    · exact (List.forall_iff_forall_mem.mp r5_sub) op h
    · exact (List.forall_iff_forall_mem.mp r6_sub) op h
    · exact (List.forall_iff_forall_mem.mp r7_sub) op h
    · exact (List.forall_iff_forall_mem.mp r8_sub) op h
    · exact (List.forall_iff_forall_mem.mp r9_sub) op h

theorem r0_fresh : (r0 : List (HloOp τ sig (Elt F))).Forall fun op => op.fresh = ∅ := by
  simp only [List.Forall]; repeat' constructor
theorem r1_fresh : (r1 : List (HloOp τ sig (Elt F))).Forall fun op => op.fresh = ∅ := by
  simp only [List.Forall]; repeat' constructor
theorem r2_fresh : (r2 : List (HloOp τ sig (Elt F))).Forall fun op => op.fresh = ∅ := by
  simp only [List.Forall]; repeat' constructor
theorem r3_fresh : (r3 : List (HloOp τ sig (Elt F))).Forall fun op => op.fresh = ∅ := by
  simp only [List.Forall]; repeat' constructor
theorem r4_fresh : (r4 : List (HloOp τ sig (Elt F))).Forall fun op => op.fresh = ∅ := by
  simp only [List.Forall]; repeat' constructor
theorem r5_fresh : (r5 : List (HloOp τ sig (Elt F))).Forall fun op => op.fresh = ∅ := by
  simp only [List.Forall]; repeat' constructor
theorem r6_fresh : (r6 : List (HloOp τ sig (Elt F))).Forall fun op => op.fresh = ∅ := by
  simp only [List.Forall]; repeat' constructor
theorem r7_fresh : (r7 : List (HloOp τ sig (Elt F))).Forall fun op => op.fresh = ∅ := by
  simp only [List.Forall]; repeat' constructor
theorem r8_fresh : (r8 : List (HloOp τ sig (Elt F))).Forall fun op => op.fresh = ∅ := by
  simp only [List.Forall]; repeat' constructor
theorem r9_fresh : (r9 : List (HloOp τ sig (Elt F))).Forall fun op => op.fresh = ∅ := by
  simp only [List.Forall]; repeat' constructor

theorem ops_fresh : ∀ op ∈ (ops : List (HloOp τ sig (Elt F))), op.fresh = ∅ := fun op h => by
  rcases mem_ops h with h | h | h | h | h | h | h | h | h | h
  · exact (List.forall_iff_forall_mem.mp r0_fresh) op h
  · exact (List.forall_iff_forall_mem.mp r1_fresh) op h
  · exact (List.forall_iff_forall_mem.mp r2_fresh) op h
  · exact (List.forall_iff_forall_mem.mp r3_fresh) op h
  · exact (List.forall_iff_forall_mem.mp r4_fresh) op h
  · exact (List.forall_iff_forall_mem.mp r5_fresh) op h
  · exact (List.forall_iff_forall_mem.mp r6_fresh) op h
  · exact (List.forall_iff_forall_mem.mp r7_fresh) op h
  · exact (List.forall_iff_forall_mem.mp r8_fresh) op h
  · exact (List.forall_iff_forall_mem.mp r9_fresh) op h

/-- At the compiled mesh, from any memory with zero counters: every weakly fair execution of @main terminates, and every
    final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- No operation writes an argument array: a reference none of the operations writes keeps its launch contents. -/
theorem kept_of_not_written (V : Valuation τ sig (Elt F)) (b : Ref sig .tc)
    (hb : ∀ op ∈ (ops : List (HloOp τ sig (Elt F))), (Proc.devRef .tc b : DevRef τ sig) ∉ op.writes) :
    after ops V (Proc.devRef .tc b) = V (Proc.devRef .tc b) :=
  after_of_forall_not_mem ops V hb

end Cert.ReferenceIdeal.HostRun

end
-- ==== Proof.RefKept.lean ====
/-
  No host operation of the reference writes an argument array: read through all of @main's operations, each argument
  is what it was at launch.
-/
import proofs.«135018_j10591389352191_1_alg».proof.Proof.RefRun

set_option maxRecDepth 16384

noncomputable section

namespace Cert.ReferenceIdeal.HostRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxHeartbeats 4000000 in
/-- Each of the eight arguments, read after the whole line of operations, is its launch contents: every operation writes
    a buffer of its own. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;> (simp only [ops, after_append]; after_results_simp)

end Cert.ReferenceIdeal.HostRun

end
-- ==== Proof.Prefix.lean ====
/-
  Before the first kernel region the two programs run the same host operations on the same arguments — the token-shift
  mix, then the hash routing of every token to a slot — so the buffers they name agree stretch by stretch, and neither
  side's routing is ever opened.
-/
import proofs.«135018_j10591389352191_1_alg».proof.Proof.Gen.KernelIdeal.Launch
import proofs.«135018_j10591389352191_1_alg».proof.Proof.RefRun
import Idealize.ShloMosaic.PureOps.Ideal
import Idealize.ShloMosaic.PureOps.Ideal.Laws

set_option maxRecDepth 16384

noncomputable section

open Idealize.ShloMosaic Idealize.ShloMosaic.TcCoe Idealize.SL.Sem Idealize.ShloMosaic.StableHlo

namespace Cert.Bridge

local notation "KV" => Valuation Cert.KernelIdeal.τ Cert.KernelIdeal.sig (Elt Ideal)
local notation "RV" => Valuation Cert.ReferenceIdeal.τ Cert.ReferenceIdeal.sig (Elt Ideal)

/-- Reads a buffer through a literal list of host operations: one simplification pass over the operations' result lemmas,
    then, for what a concatenation's operand list hides from that pass, the same lemmas by rewriting. -/
macro "read_through" : tactic =>
  `(tactic| (try after_results_simp
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The shared host operations, stretch by stretch -/

set_option maxHeartbeats 2000000 in
/-- The token-shift mix and the scaled token ids: functions of the first five arguments alone. Where the two programs' buffers agree before the stretch, they agree after it. -/
theorem step0 (VK : KV) (VR : RV) (h_arg0 : VK (Proc.devRef .tc Cert.KernelIdeal.main_arg0) = VR (Proc.devRef .tc Cert.ReferenceIdeal.main_arg0)) (h_arg1 : VK (Proc.devRef .tc Cert.KernelIdeal.main_arg1) = VR (Proc.devRef .tc Cert.ReferenceIdeal.main_arg1)) (h_arg2 : VK (Proc.devRef .tc Cert.KernelIdeal.main_arg2) = VR (Proc.devRef .tc Cert.ReferenceIdeal.main_arg2)) (h_arg3 : VK (Proc.devRef .tc Cert.KernelIdeal.main_arg3) = VR (Proc.devRef .tc Cert.ReferenceIdeal.main_arg3)) (h_arg4 : VK (Proc.devRef .tc Cert.KernelIdeal.main_arg4) = VR (Proc.devRef .tc Cert.ReferenceIdeal.main_arg4)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0 (F := Ideal)) VK (Proc.devRef .tc Cert.KernelIdeal.main_v7) = after (Cert.ReferenceIdeal.Ops.r0 (F := Ideal)) VR (Proc.devRef .tc Cert.ReferenceIdeal.main_v7)
    ∧ after (Cert.KernelIdeal.Gen.hostOps0 (F := Ideal)) VK (Proc.devRef .tc Cert.KernelIdeal.main_v11) = after (Cert.ReferenceIdeal.Ops.r0 (F := Ideal)) VR (Proc.devRef .tc Cert.ReferenceIdeal.main_v11)
    ∧ after (Cert.KernelIdeal.Gen.hostOps0 (F := Ideal)) VK (Proc.devRef .tc Cert.KernelIdeal.main_v14) = after (Cert.ReferenceIdeal.Ops.r0 (F := Ideal)) VR (Proc.devRef .tc Cert.ReferenceIdeal.main_v14)
    ∧ after (Cert.KernelIdeal.Gen.hostOps0 (F := Ideal)) VK (Proc.devRef .tc Cert.KernelIdeal.main_c_0) = after (Cert.ReferenceIdeal.Ops.r0 (F := Ideal)) VR (Proc.devRef .tc Cert.ReferenceIdeal.main_c_0)
    ∧ after (Cert.KernelIdeal.Gen.hostOps0 (F := Ideal)) VK (Proc.devRef .tc Cert.KernelIdeal.main_arg5) = after (Cert.ReferenceIdeal.Ops.r0 (F := Ideal)) VR (Proc.devRef .tc Cert.ReferenceIdeal.main_arg5)
    ∧ after (Cert.KernelIdeal.Gen.hostOps0 (F := Ideal)) VK (Proc.devRef .tc Cert.KernelIdeal.main_arg6) = after (Cert.ReferenceIdeal.Ops.r0 (F := Ideal)) VR (Proc.devRef .tc Cert.ReferenceIdeal.main_arg6)
    ∧ after (Cert.KernelIdeal.Gen.hostOps0 (F := Ideal)) VK (Proc.devRef .tc Cert.KernelIdeal.main_arg7) = after (Cert.ReferenceIdeal.Ops.r0 (F := Ideal)) VR (Proc.devRef .tc Cert.ReferenceIdeal.main_arg7) := by
  refine ⟨?_, ?_, ?_, ?_, ?_, ?_, ?_⟩
  · read_through; rw [h_arg0, h_arg2, h_arg3]
  · read_through; rw [h_arg0, h_arg2, h_arg4]
  all_goals (read_through; try (simp only [h_arg0, h_arg1, h_arg2, h_arg3, h_arg4, h_arg5, h_arg6, h_arg7]); try rfl)

set_option maxHeartbeats 2000000 in
/-- The expert index: the scaled ids modulo the number of experts (the floor-modulo's sign correction included). Where the two programs' buffers agree before the stretch, they agree after it. -/
theorem step1 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v14 : VK (Proc.devRef .tc Cert.KernelIdeal.main_v14) = VR (Proc.devRef .tc Cert.ReferenceIdeal.main_v14)) (h_c_0 : VK (Proc.devRef .tc Cert.KernelIdeal.main_c_0) = VR (Proc.devRef .tc Cert.ReferenceIdeal.main_c_0)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_1 (F := Ideal)) VK (Proc.devRef .tc Cert.KernelIdeal.main_v7) = after (Cert.ReferenceIdeal.Ops.r1 (F := Ideal)) VR (Proc.devRef .tc Cert.ReferenceIdeal.main_v7)
    ∧ after (Cert.KernelIdeal.Gen.hostOps0_1 (F := Ideal)) VK (Proc.devRef .tc Cert.KernelIdeal.main_v11) = after (Cert.ReferenceIdeal.Ops.r1 (F := Ideal)) VR (Proc.devRef .tc Cert.ReferenceIdeal.main_v11)
    ∧ after (Cert.KernelIdeal.Gen.hostOps0_1 (F := Ideal)) VK (Proc.devRef .tc Cert.KernelIdeal.main_v15) = after (Cert.ReferenceIdeal.Ops.r1 (F := Ideal)) VR (Proc.devRef .tc Cert.ReferenceIdeal.main_v15)
    ∧ after (Cert.KernelIdeal.Gen.hostOps0_1 (F := Ideal)) VK (Proc.devRef .tc Cert.KernelIdeal.main_arg5) = after (Cert.ReferenceIdeal.Ops.r1 (F := Ideal)) VR (Proc.devRef .tc Cert.ReferenceIdeal.main_arg5)
    ∧ after (Cert.KernelIdeal.Gen.hostOps0_1 (F := Ideal)) VK (Proc.devRef .tc Cert.KernelIdeal.main_arg6) = after (Cert.ReferenceIdeal.Ops.r1 (F := Ideal)) VR (Proc.devRef .tc Cert.ReferenceIdeal.main_arg6)
    ∧ after (Cert.KernelIdeal.Gen.hostOps0_1 (F := Ideal)) VK (Proc.devRef .tc Cert.KernelIdeal.main_arg7) = after (Cert.ReferenceIdeal.Ops.r1 (F := Ideal)) VR (Proc.devRef .tc Cert.ReferenceIdeal.main_arg7) := by
  refine ⟨?_, ?_, ?_, ?_, ?_, ?_⟩ <;>
    (read_through; try (simp only [h_v7, h_v11, h_v14, h_c_0, h_arg5, h_arg6, h_arg7]); try rfl)

set_option maxHeartbeats 2000000 in
/-- The one-hot rows of the expert indices. Where the two programs' buffers agree before the stretch, they agree after it. -/
theorem step2 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v15 : VK (Proc.devRef .tc Cert.KernelIdeal.main_v15) = VR (Proc.devRef .tc Cert.ReferenceIdeal.main_v15)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_2 (F := Ideal)) VK (Proc.devRef .tc Cert.KernelIdeal.main_v7) = after (Cert.ReferenceIdeal.Ops.r2 (F := Ideal)) VR (Proc.devRef .tc Cert.ReferenceIdeal.main_v7)
    ∧ after (Cert.KernelIdeal.Gen.hostOps0_2 (F := Ideal)) VK (Proc.devRef .tc Cert.KernelIdeal.main_v11) = after (Cert.ReferenceIdeal.Ops.r2 (F := Ideal)) VR (Proc.devRef .tc Cert.ReferenceIdeal.main_v11)
    ∧ after (Cert.KernelIdeal.Gen.hostOps0_2 (F := Ideal)) VK (Proc.devRef .tc Cert.KernelIdeal.main_v15) = after (Cert.ReferenceIdeal.Ops.r2 (F := Ideal)) VR (Proc.devRef .tc Cert.ReferenceIdeal.main_v15)
    ∧ after (Cert.KernelIdeal.Gen.hostOps0_2 (F := Ideal)) VK (Proc.devRef .tc Cert.KernelIdeal.main_v22) = after (Cert.ReferenceIdeal.Ops.r2 (F := Ideal)) VR (Proc.devRef .tc Cert.ReferenceIdeal.main_v22)
    ∧ after (Cert.KernelIdeal.Gen.hostOps0_2 (F := Ideal)) VK (Proc.devRef .tc Cert.KernelIdeal.main_arg5) = after (Cert.ReferenceIdeal.Ops.r2 (F := Ideal)) VR (Proc.devRef .tc Cert.ReferenceIdeal.main_arg5)
    ∧ after (Cert.KernelIdeal.Gen.hostOps0_2 (F := Ideal)) VK (Proc.devRef .tc Cert.KernelIdeal.main_arg6) = after (Cert.ReferenceIdeal.Ops.r2 (F := Ideal)) VR (Proc.devRef .tc Cert.ReferenceIdeal.main_arg6)
    ∧ after (Cert.KernelIdeal.Gen.hostOps0_2 (F := Ideal)) VK (Proc.devRef .tc Cert.KernelIdeal.main_arg7) = after (Cert.ReferenceIdeal.Ops.r2 (F := Ideal)) VR (Proc.devRef .tc Cert.ReferenceIdeal.main_arg7) := by
  refine ⟨?_, ?_, ?_, ?_, ?_, ?_, ?_⟩ <;>
    (read_through; try (simp only [h_v7, h_v11, h_v15, h_arg5, h_arg6, h_arg7]); try rfl)

set_option maxHeartbeats 2000000 in
/-- Their running column sums. Where the two programs' buffers agree before the stretch, they agree after it. -/
theorem step3 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v15 : VK (Proc.devRef .tc Cert.KernelIdeal.main_v15) = VR (Proc.devRef .tc Cert.ReferenceIdeal.main_v15)) (h_v22 : VK (Proc.devRef .tc Cert.KernelIdeal.main_v22) = VR (Proc.devRef .tc Cert.ReferenceIdeal.main_v22)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_3 (F := Ideal)) VK (Proc.devRef .tc Cert.KernelIdeal.main_v7) = after (Cert.ReferenceIdeal.Ops.r3 (F := Ideal)) VR (Proc.devRef .tc Cert.ReferenceIdeal.main_v7)
    ∧ after (Cert.KernelIdeal.Gen.hostOps0_3 (F := Ideal)) VK (Proc.devRef .tc Cert.KernelIdeal.main_v11) = after (Cert.ReferenceIdeal.Ops.r3 (F := Ideal)) VR (Proc.devRef .tc Cert.ReferenceIdeal.main_v11)
    ∧ after (Cert.KernelIdeal.Gen.hostOps0_3 (F := Ideal)) VK (Proc.devRef .tc Cert.KernelIdeal.main_v15) = after (Cert.ReferenceIdeal.Ops.r3 (F := Ideal)) VR (Proc.devRef .tc Cert.ReferenceIdeal.main_v15)
    ∧ after (Cert.KernelIdeal.Gen.hostOps0_3 (F := Ideal)) VK (Proc.devRef .tc Cert.KernelIdeal.main_v23) = after (Cert.ReferenceIdeal.Ops.r3 (F := Ideal)) VR (Proc.devRef .tc Cert.ReferenceIdeal.main_v23)
    ∧ after (Cert.KernelIdeal.Gen.hostOps0_3 (F := Ideal)) VK (Proc.devRef .tc Cert.KernelIdeal.main_arg5) = after (Cert.ReferenceIdeal.Ops.r3 (F := Ideal)) VR (Proc.devRef .tc Cert.ReferenceIdeal.main_arg5)
    ∧ after (Cert.KernelIdeal.Gen.hostOps0_3 (F := Ideal)) VK (Proc.devRef .tc Cert.KernelIdeal.main_arg6) = after (Cert.ReferenceIdeal.Ops.r3 (F := Ideal)) VR (Proc.devRef .tc Cert.ReferenceIdeal.main_arg6)
    ∧ after (Cert.KernelIdeal.Gen.hostOps0_3 (F := Ideal)) VK (Proc.devRef .tc Cert.KernelIdeal.main_arg7) = after (Cert.ReferenceIdeal.Ops.r3 (F := Ideal)) VR (Proc.devRef .tc Cert.ReferenceIdeal.main_arg7) := by
  refine ⟨?_, ?_, ?_, ?_, ?_, ?_, ?_⟩ <;>
    (read_through; try (simp only [h_v7, h_v11, h_v15, h_v22, h_arg5, h_arg6, h_arg7]); try rfl)

set_option maxHeartbeats 2000000 in
/-- The expert indices as a column. Where the two programs' buffers agree before the stretch, they agree after it. -/
theorem step4 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v15 : VK (Proc.devRef .tc Cert.KernelIdeal.main_v15) = VR (Proc.devRef .tc Cert.ReferenceIdeal.main_v15)) (h_v23 : VK (Proc.devRef .tc Cert.KernelIdeal.main_v23) = VR (Proc.devRef .tc Cert.ReferenceIdeal.main_v23)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_4 (F := Ideal)) VK (Proc.devRef .tc Cert.KernelIdeal.main_v7) = after (Cert.ReferenceIdeal.Ops.r4 (F := Ideal)) VR (Proc.devRef .tc Cert.ReferenceIdeal.main_v7)
    ∧ after (Cert.KernelIdeal.Gen.hostOps0_4 (F := Ideal)) VK (Proc.devRef .tc Cert.KernelIdeal.main_v11) = after (Cert.ReferenceIdeal.Ops.r4 (F := Ideal)) VR (Proc.devRef .tc Cert.ReferenceIdeal.main_v11)
    ∧ after (Cert.KernelIdeal.Gen.hostOps0_4 (F := Ideal)) VK (Proc.devRef .tc Cert.KernelIdeal.main_v15) = after (Cert.ReferenceIdeal.Ops.r4 (F := Ideal)) VR (Proc.devRef .tc Cert.ReferenceIdeal.main_v15)
    ∧ after (Cert.KernelIdeal.Gen.hostOps0_4 (F := Ideal)) VK (Proc.devRef .tc Cert.KernelIdeal.main_v23) = after (Cert.ReferenceIdeal.Ops.r4 (F := Ideal)) VR (Proc.devRef .tc Cert.ReferenceIdeal.main_v23)
    ∧ after (Cert.KernelIdeal.Gen.hostOps0_4 (F := Ideal)) VK (Proc.devRef .tc Cert.KernelIdeal.main_v24) = after (Cert.ReferenceIdeal.Ops.r4 (F := Ideal)) VR (Proc.devRef .tc Cert.ReferenceIdeal.main_v24)
    ∧ after (Cert.KernelIdeal.Gen.hostOps0_4 (F := Ideal)) VK (Proc.devRef .tc Cert.KernelIdeal.main_arg5) = after (Cert.ReferenceIdeal.Ops.r4 (F := Ideal)) VR (Proc.devRef .tc Cert.ReferenceIdeal.main_arg5)
    ∧ after (Cert.KernelIdeal.Gen.hostOps0_4 (F := Ideal)) VK (Proc.devRef .tc Cert.KernelIdeal.main_arg6) = after (Cert.ReferenceIdeal.Ops.r4 (F := Ideal)) VR (Proc.devRef .tc Cert.ReferenceIdeal.main_arg6)
    ∧ after (Cert.KernelIdeal.Gen.hostOps0_4 (F := Ideal)) VK (Proc.devRef .tc Cert.KernelIdeal.main_arg7) = after (Cert.ReferenceIdeal.Ops.r4 (F := Ideal)) VR (Proc.devRef .tc Cert.ReferenceIdeal.main_arg7) := by
  refine ⟨?_, ?_, ?_, ?_, ?_, ?_, ?_, ?_⟩ <;>
    (read_through; try (simp only [h_v7, h_v11, h_v15, h_v23, h_arg5, h_arg6, h_arg7]); try rfl)

set_option maxHeartbeats 2000000 in
/-- Each token's running count in its own expert's column. Where the two programs' buffers agree before the stretch, they agree after it. -/
theorem step5 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v15 : VK (Proc.devRef .tc Cert.KernelIdeal.main_v15) = VR (Proc.devRef .tc Cert.ReferenceIdeal.main_v15)) (h_v23 : VK (Proc.devRef .tc Cert.KernelIdeal.main_v23) = VR (Proc.devRef .tc Cert.ReferenceIdeal.main_v23)) (h_v24 : VK (Proc.devRef .tc Cert.KernelIdeal.main_v24) = VR (Proc.devRef .tc Cert.ReferenceIdeal.main_v24)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_5 (F := Ideal)) VK (Proc.devRef .tc Cert.KernelIdeal.main_v7) = after (Cert.ReferenceIdeal.Ops.r5 (F := Ideal)) VR (Proc.devRef .tc Cert.ReferenceIdeal.main_v7)
    ∧ after (Cert.KernelIdeal.Gen.hostOps0_5 (F := Ideal)) VK (Proc.devRef .tc Cert.KernelIdeal.main_v11) = after (Cert.ReferenceIdeal.Ops.r5 (F := Ideal)) VR (Proc.devRef .tc Cert.ReferenceIdeal.main_v11)
    ∧ after (Cert.KernelIdeal.Gen.hostOps0_5 (F := Ideal)) VK (Proc.devRef .tc Cert.KernelIdeal.main_v15) = after (Cert.ReferenceIdeal.Ops.r5 (F := Ideal)) VR (Proc.devRef .tc Cert.ReferenceIdeal.main_v15)
    ∧ after (Cert.KernelIdeal.Gen.hostOps0_5 (F := Ideal)) VK (Proc.devRef .tc Cert.KernelIdeal.main_v25) = after (Cert.ReferenceIdeal.Ops.r5 (F := Ideal)) VR (Proc.devRef .tc Cert.ReferenceIdeal.main_v25)
    ∧ after (Cert.KernelIdeal.Gen.hostOps0_5 (F := Ideal)) VK (Proc.devRef .tc Cert.KernelIdeal.main_arg5) = after (Cert.ReferenceIdeal.Ops.r5 (F := Ideal)) VR (Proc.devRef .tc Cert.ReferenceIdeal.main_arg5)
    ∧ after (Cert.KernelIdeal.Gen.hostOps0_5 (F := Ideal)) VK (Proc.devRef .tc Cert.KernelIdeal.main_arg6) = after (Cert.ReferenceIdeal.Ops.r5 (F := Ideal)) VR (Proc.devRef .tc Cert.ReferenceIdeal.main_arg6)
    ∧ after (Cert.KernelIdeal.Gen.hostOps0_5 (F := Ideal)) VK (Proc.devRef .tc Cert.KernelIdeal.main_arg7) = after (Cert.ReferenceIdeal.Ops.r5 (F := Ideal)) VR (Proc.devRef .tc Cert.ReferenceIdeal.main_arg7) := by
  refine ⟨?_, ?_, ?_, ?_, ?_, ?_, ?_⟩ <;>
    (read_through; try (simp only [h_v7, h_v11, h_v15, h_v23, h_v24, h_arg5, h_arg6, h_arg7]); try rfl)

set_option maxHeartbeats 2000000 in
/-- The position in the expert's queue, whether it is under capacity, and the slot it would take. Where the two programs' buffers agree before the stretch, they agree after it. -/
theorem step6 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v15 : VK (Proc.devRef .tc Cert.KernelIdeal.main_v15) = VR (Proc.devRef .tc Cert.ReferenceIdeal.main_v15)) (h_v25 : VK (Proc.devRef .tc Cert.KernelIdeal.main_v25) = VR (Proc.devRef .tc Cert.ReferenceIdeal.main_v25)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_6 (F := Ideal)) VK (Proc.devRef .tc Cert.KernelIdeal.main_v7) = after (Cert.ReferenceIdeal.Ops.r6 (F := Ideal)) VR (Proc.devRef .tc Cert.ReferenceIdeal.main_v7)
    ∧ after (Cert.KernelIdeal.Gen.hostOps0_6 (F := Ideal)) VK (Proc.devRef .tc Cert.KernelIdeal.main_v11) = after (Cert.ReferenceIdeal.Ops.r6 (F := Ideal)) VR (Proc.devRef .tc Cert.ReferenceIdeal.main_v11)
    ∧ after (Cert.KernelIdeal.Gen.hostOps0_6 (F := Ideal)) VK (Proc.devRef .tc Cert.KernelIdeal.main_v30) = after (Cert.ReferenceIdeal.Ops.r6 (F := Ideal)) VR (Proc.devRef .tc Cert.ReferenceIdeal.main_v30)
    ∧ after (Cert.KernelIdeal.Gen.hostOps0_6 (F := Ideal)) VK (Proc.devRef .tc Cert.KernelIdeal.main_v33) = after (Cert.ReferenceIdeal.Ops.r6 (F := Ideal)) VR (Proc.devRef .tc Cert.ReferenceIdeal.main_v33)
    ∧ after (Cert.KernelIdeal.Gen.hostOps0_6 (F := Ideal)) VK (Proc.devRef .tc Cert.KernelIdeal.main_c_4) = after (Cert.ReferenceIdeal.Ops.r6 (F := Ideal)) VR (Proc.devRef .tc Cert.ReferenceIdeal.main_c_4)
    ∧ after (Cert.KernelIdeal.Gen.hostOps0_6 (F := Ideal)) VK (Proc.devRef .tc Cert.KernelIdeal.main_arg5) = after (Cert.ReferenceIdeal.Ops.r6 (F := Ideal)) VR (Proc.devRef .tc Cert.ReferenceIdeal.main_arg5)
    ∧ after (Cert.KernelIdeal.Gen.hostOps0_6 (F := Ideal)) VK (Proc.devRef .tc Cert.KernelIdeal.main_arg6) = after (Cert.ReferenceIdeal.Ops.r6 (F := Ideal)) VR (Proc.devRef .tc Cert.ReferenceIdeal.main_arg6)
    ∧ after (Cert.KernelIdeal.Gen.hostOps0_6 (F := Ideal)) VK (Proc.devRef .tc Cert.KernelIdeal.main_arg7) = after (Cert.ReferenceIdeal.Ops.r6 (F := Ideal)) VR (Proc.devRef .tc Cert.ReferenceIdeal.main_arg7) := by
  refine ⟨?_, ?_, ?_, ?_, ?_, ?_, ?_, ?_⟩ <;>
    (read_through; try (simp only [h_v7, h_v11, h_v15, h_v25, h_arg5, h_arg6, h_arg7]); try rfl)

set_option maxHeartbeats 2000000 in
/-- The slot: the computed one under capacity, the dummy row otherwise. Where the two programs' buffers agree before the stretch, they agree after it. -/
theorem step7 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v30 : VK (Proc.devRef .tc Cert.KernelIdeal.main_v30) = VR (Proc.devRef .tc Cert.ReferenceIdeal.main_v30)) (h_v33 : VK (Proc.devRef .tc Cert.KernelIdeal.main_v33) = VR (Proc.devRef .tc Cert.ReferenceIdeal.main_v33)) (h_c_4 : VK (Proc.devRef .tc Cert.KernelIdeal.main_c_4) = VR (Proc.devRef .tc Cert.ReferenceIdeal.main_c_4)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    after (Cert.KernelIdeal.Gen.hostOps0_7 (F := Ideal)) VK (Proc.devRef .tc Cert.KernelIdeal.main_v7) = after (Cert.ReferenceIdeal.Ops.r7 (F := Ideal)) VR (Proc.devRef .tc Cert.ReferenceIdeal.main_v7)
    ∧ after (Cert.KernelIdeal.Gen.hostOps0_7 (F := Ideal)) VK (Proc.devRef .tc Cert.KernelIdeal.main_v11) = after (Cert.ReferenceIdeal.Ops.r7 (F := Ideal)) VR (Proc.devRef .tc Cert.ReferenceIdeal.main_v11)
    ∧ after (Cert.KernelIdeal.Gen.hostOps0_7 (F := Ideal)) VK (Proc.devRef .tc Cert.KernelIdeal.main_v34) = after (Cert.ReferenceIdeal.Ops.r7 (F := Ideal)) VR (Proc.devRef .tc Cert.ReferenceIdeal.main_v34)
    ∧ after (Cert.KernelIdeal.Gen.hostOps0_7 (F := Ideal)) VK (Proc.devRef .tc Cert.KernelIdeal.main_arg5) = after (Cert.ReferenceIdeal.Ops.r7 (F := Ideal)) VR (Proc.devRef .tc Cert.ReferenceIdeal.main_arg5)
    ∧ after (Cert.KernelIdeal.Gen.hostOps0_7 (F := Ideal)) VK (Proc.devRef .tc Cert.KernelIdeal.main_arg6) = after (Cert.ReferenceIdeal.Ops.r7 (F := Ideal)) VR (Proc.devRef .tc Cert.ReferenceIdeal.main_arg6)
    ∧ after (Cert.KernelIdeal.Gen.hostOps0_7 (F := Ideal)) VK (Proc.devRef .tc Cert.KernelIdeal.main_arg7) = after (Cert.ReferenceIdeal.Ops.r7 (F := Ideal)) VR (Proc.devRef .tc Cert.ReferenceIdeal.main_arg7) := by
  refine ⟨?_, ?_, ?_, ?_, ?_, ?_⟩ <;>
    (read_through; try (simp only [h_v7, h_v11, h_v30, h_v33, h_c_4, h_arg5, h_arg6, h_arg7]); try rfl)

end Cert.Bridge

end
-- ==== Proof.Dispatch.lean ====
/-
  The dispatch: the mixed tokens scattered by slot into a zero buffer, the dummy row dropped, one block of rows per
  expert. The kernel program's buffer is of a narrower float format than the reference's; on the extended reals the two
  are the same buffer.
-/
import proofs.«135018_j10591389352191_1_alg».proof.Proof.Prefix

set_option maxRecDepth 16384

noncomputable section

open Idealize.ShloMosaic Idealize.ShloMosaic.TcCoe Idealize.SL.Sem Idealize.ShloMosaic.StableHlo

namespace Cert.Bridge

local notation "KV" => Valuation Cert.KernelIdeal.τ Cert.KernelIdeal.sig (Elt Ideal)
local notation "RV" => Valuation Cert.ReferenceIdeal.τ Cert.ReferenceIdeal.sig (Elt Ideal)

/-- The zero of either float format is the real zero. -/
theorem zero_splat : (constant (F := Ideal) Cert.KernelIdeal.S_ .bf16 0x0000#16 : Cert.KernelIdeal.S_.Idx → EReal)
    = constant (F := Ideal) Cert.ReferenceIdeal.S_ .f32 0x00000000#32 := by
  funext _
  show Ideal.ofBits .bf16 0x0000#16 = Ideal.ofBits .f32 0x00000000#32
  rw [Ideal.ofBits_zero_f32]
  simp [Ideal.ofBits, Ideal.ieee]

set_option maxHeartbeats 2000000 in
/-- Narrowing the float format changes nothing on the extended reals. -/
theorem narrow_id {s : Shape} (x : FVec Ideal s .f32) (h : FTy.bits .bf16 < FTy.bits .f32) :
    (truncf (F := Ideal) .bf16 x h : s.Idx → EReal) = x := rfl

/-- The dispatch: the mixed tokens scattered by slot into a zero buffer, the dummy row dropped, one block per expert.
    The kernel program's buffer is of the narrower float format; on the extended reals that is the same buffer. -/
theorem step8 (VK : KV) (VR : RV) (h_v7 : VK (Proc.devRef .tc Cert.KernelIdeal.main_v7) = VR (Proc.devRef .tc Cert.ReferenceIdeal.main_v7)) (h_v11 : VK (Proc.devRef .tc Cert.KernelIdeal.main_v11) = VR (Proc.devRef .tc Cert.ReferenceIdeal.main_v11)) (h_v34 : VK (Proc.devRef .tc Cert.KernelIdeal.main_v34) = VR (Proc.devRef .tc Cert.ReferenceIdeal.main_v34)) (h_arg5 : VK (Proc.devRef .tc Cert.KernelIdeal.main_arg5) = VR (Proc.devRef .tc Cert.ReferenceIdeal.main_arg5)) (h_arg6 : VK (Proc.devRef .tc Cert.KernelIdeal.main_arg6) = VR (Proc.devRef .tc Cert.ReferenceIdeal.main_arg6)) (h_arg7 : VK (Proc.devRef .tc Cert.KernelIdeal.main_arg7) = VR (Proc.devRef .tc Cert.ReferenceIdeal.main_arg7)) :
    (after (Cert.KernelIdeal.Gen.hostOps0_8 (F := Ideal)) VK (Proc.devRef .tc Cert.KernelIdeal.main_v46) : (⟨3, ![16, 1024, 1024]⟩ : Shape).Idx → EReal)
        = after (Cert.ReferenceIdeal.Ops.r8 (F := Ideal)) VR (Proc.devRef .tc Cert.ReferenceIdeal.main_v45)
    ∧ after (Cert.KernelIdeal.Gen.hostOps0_8 (F := Ideal)) VK (Proc.devRef .tc Cert.KernelIdeal.main_v11) = after (Cert.ReferenceIdeal.Ops.r8 (F := Ideal)) VR (Proc.devRef .tc Cert.ReferenceIdeal.main_v11)
    ∧ after (Cert.KernelIdeal.Gen.hostOps0_8 (F := Ideal)) VK (Proc.devRef .tc Cert.KernelIdeal.main_v34) = after (Cert.ReferenceIdeal.Ops.r8 (F := Ideal)) VR (Proc.devRef .tc Cert.ReferenceIdeal.main_v34)
    ∧ after (Cert.KernelIdeal.Gen.hostOps0_8 (F := Ideal)) VK (Proc.devRef .tc Cert.KernelIdeal.main_arg5) = after (Cert.ReferenceIdeal.Ops.r8 (F := Ideal)) VR (Proc.devRef .tc Cert.ReferenceIdeal.main_arg5)
    ∧ after (Cert.KernelIdeal.Gen.hostOps0_8 (F := Ideal)) VK (Proc.devRef .tc Cert.KernelIdeal.main_arg6) = after (Cert.ReferenceIdeal.Ops.r8 (F := Ideal)) VR (Proc.devRef .tc Cert.ReferenceIdeal.main_arg6)
    ∧ after (Cert.KernelIdeal.Gen.hostOps0_8 (F := Ideal)) VK (Proc.devRef .tc Cert.KernelIdeal.main_arg7) = after (Cert.ReferenceIdeal.Ops.r8 (F := Ideal)) VR (Proc.devRef .tc Cert.ReferenceIdeal.main_arg7) := by
  refine ⟨?_, ?_, ?_, ?_, ?_, ?_⟩
  · read_through
    simp only [h_v7, h_v34]
    rw [zero_splat, narrow_id]
    rfl
  all_goals (read_through; try (simp only [h_v7, h_v11, h_v34, h_arg5, h_arg6, h_arg7]); try rfl)

end Cert.Bridge

end
-- ==== Proof.Spec.lean ====
/-
  What the two programs compute, entry by entry, on the extended reals.

  Tokens are dispatched to sixteen experts; expert `e` sends row `r` of its buffer through its key weights, rectifies
  and squares the hidden row, and sends that through its value weights. Each token's result is then gated, channel by
  channel, by the logistic of its mixed input against the receptance weights.
-/
import Idealize.ShloMosaic.PureOps.Ideal
import Idealize.ShloMosaic.Lib.ValueIdx

noncomputable section

open scoped BigOperators
open Idealize.ShloMosaic Idealize.ShloMosaic.ValueIdx

namespace Cert.Spec

/-- Row `r` of expert `e`'s buffer against column `f` of its key weights. -/
def hid (a : (⟨3, ![16, 1024, 1024]⟩ : Shape).Idx → EReal) (wk : (⟨3, ![16, 1024, 2048]⟩ : Shape).Idx → EReal)
    (e : Fin 16) (r : Fin 1024) (f : Fin 2048) : EReal :=
  ∑ k : Fin 1024, a (ix3 e r k) * wk (ix3 e k f)

/-- The expert feed-forward at `(e, r, d)`: the hidden row rectified and squared, against column `d` of the value
    weights. -/
def ffnAt (a : (⟨3, ![16, 1024, 1024]⟩ : Shape).Idx → EReal) (wk : (⟨3, ![16, 1024, 2048]⟩ : Shape).Idx → EReal)
    (wv : (⟨3, ![16, 2048, 1024]⟩ : Shape).Idx → EReal) (e : Fin 16) (r : Fin 1024) (d : Fin 1024) : EReal :=
  ∑ f : Fin 2048, (max (hid a wk e r f) 0 * max (hid a wk e r f) 0) * wv (ix3 e f d)

/-- The experts' output buffer as one function of the dispatched buffer and the weights. -/
def ffn (a : (⟨3, ![16, 1024, 1024]⟩ : Shape).Idx → EReal) (wk : (⟨3, ![16, 1024, 2048]⟩ : Shape).Idx → EReal)
    (wv : (⟨3, ![16, 2048, 1024]⟩ : Shape).Idx → EReal) : (⟨3, ![16, 1024, 1024]⟩ : Shape).Idx → EReal :=
  fun i => ffnAt a wk wv (i 0) (i 1) (i 2)

/-- The receptance gate of token `n` at channel `d`: the logistic of the token's row against column `d` of the
    transposed receptance weights. -/
def gateAt (xr : (⟨2, ![16384, 1024]⟩ : Shape).Idx → EReal) (wT : (⟨2, ![1024, 1024]⟩ : Shape).Idx → EReal)
    (n : Fin 16384) (d : Fin 1024) : EReal :=
  Ideal.logistic (∑ k : Fin 1024, xr (ix2 n k) * wT (ix2 k d))

/-- The gated combine over the flat token axis. -/
def gated (xr : (⟨2, ![16384, 1024]⟩ : Shape).Idx → EReal) (wT : (⟨2, ![1024, 1024]⟩ : Shape).Idx → EReal)
    (y : (⟨2, ![16384, 1024]⟩ : Shape).Idx → EReal) : (⟨2, ![16384, 1024]⟩ : Shape).Idx → EReal :=
  fun j => gateAt xr wT (j 0) (j 1) * y j

end Cert.Spec

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.FfnRef.lean ====
/-
  The experts' feed-forward as the reference computes it: a product batched over the experts, the rectifier against a
  zero splat, the square, a second batched product.
-/
import proofs.«135018_j10591389352191_1_alg».proof.Proof.Gen.ReferenceIdeal
import proofs.«135018_j10591389352191_1_alg».proof.Proof.Spec
import proofs.«135018_j10591389352191_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.FfnValue

open Cert.ReferenceIdeal Cert.ReferenceIdeal.Gen

/-! ## The operand indices of the two batched products

  Both products carry the expert axis as a batch axis (axis 0 of each operand and of the result), keep the left
  operand's rows (axis 1) and the right operand's columns (axis 2), and contract the left operand's axis 2 with the
  right operand's axis 1. At the result entry `(e, r, c)` and contraction coordinate `k` the left operand is therefore
  read at `(e, r, k)` and the right operand at `(e, k, c)`. -/

/-- First product, left operand: the batch axis reads the expert. -/
theorem lhs_key_0 (j : S16x1024x2048.Idx) (k : dot_S16x1024x1024_S16x1024x2048_S16x1024x2048_2_1_1_2_0_0.contr.Idx) :
    (dot_S16x1024x1024_S16x1024x2048_S16x1024x2048_2_1_1_2_0_0.lhsIdx j k 0).val = (j 0).val := rfl
/-- First product, left operand: the free axis reads the row. -/
theorem lhs_key_1 (j : S16x1024x2048.Idx) (k : dot_S16x1024x1024_S16x1024x2048_S16x1024x2048_2_1_1_2_0_0.contr.Idx) :
    (dot_S16x1024x1024_S16x1024x2048_S16x1024x2048_2_1_1_2_0_0.lhsIdx j k 1).val = (j 1).val := rfl
/-- First product, left operand: the contracted axis reads the contraction coordinate. -/
theorem lhs_key_2 (j : S16x1024x2048.Idx) (k : dot_S16x1024x1024_S16x1024x2048_S16x1024x2048_2_1_1_2_0_0.contr.Idx) :
    (dot_S16x1024x1024_S16x1024x2048_S16x1024x2048_2_1_1_2_0_0.lhsIdx j k 2).val = (k ⟨0, Nat.one_pos⟩).val :=
  dot_S16x1024x1024_S16x1024x2048_S16x1024x2048_2_1_1_2_0_0.lhsIdx_val_of_single rfl j k
/-- First product, right operand: the batch axis reads the expert. -/
theorem rhs_key_0 (j : S16x1024x2048.Idx) (k : dot_S16x1024x1024_S16x1024x2048_S16x1024x2048_2_1_1_2_0_0.contr.Idx) :
    (dot_S16x1024x1024_S16x1024x2048_S16x1024x2048_2_1_1_2_0_0.rhsIdx j k 0).val = (j 0).val := rfl
/-- First product, right operand: the contracted axis reads the contraction coordinate. -/
theorem rhs_key_1 (j : S16x1024x2048.Idx) (k : dot_S16x1024x1024_S16x1024x2048_S16x1024x2048_2_1_1_2_0_0.contr.Idx) :
    (dot_S16x1024x1024_S16x1024x2048_S16x1024x2048_2_1_1_2_0_0.rhsIdx j k 1).val = (k ⟨0, Nat.one_pos⟩).val :=
  dot_S16x1024x1024_S16x1024x2048_S16x1024x2048_2_1_1_2_0_0.rhsIdx_val_of_single rfl j k
/-- First product, right operand: the free axis reads the column. -/
theorem rhs_key_2 (j : S16x1024x2048.Idx) (k : dot_S16x1024x1024_S16x1024x2048_S16x1024x2048_2_1_1_2_0_0.contr.Idx) :
    (dot_S16x1024x1024_S16x1024x2048_S16x1024x2048_2_1_1_2_0_0.rhsIdx j k 2).val = (j 2).val := rfl

/-- Second product, left operand: the batch axis reads the expert. -/
theorem lhs_value_0 (j : S16x1024x1024.Idx) (k : dot_S16x1024x2048_S16x2048x1024_S16x1024x1024_2_1_1_2_0_0.contr.Idx) :
    (dot_S16x1024x2048_S16x2048x1024_S16x1024x1024_2_1_1_2_0_0.lhsIdx j k 0).val = (j 0).val := rfl
/-- Second product, left operand: the free axis reads the row. -/
theorem lhs_value_1 (j : S16x1024x1024.Idx) (k : dot_S16x1024x2048_S16x2048x1024_S16x1024x1024_2_1_1_2_0_0.contr.Idx) :
    (dot_S16x1024x2048_S16x2048x1024_S16x1024x1024_2_1_1_2_0_0.lhsIdx j k 1).val = (j 1).val := rfl
/-- Second product, left operand: the contracted axis reads the contraction coordinate. -/
theorem lhs_value_2 (j : S16x1024x1024.Idx) (k : dot_S16x1024x2048_S16x2048x1024_S16x1024x1024_2_1_1_2_0_0.contr.Idx) :
    (dot_S16x1024x2048_S16x2048x1024_S16x1024x1024_2_1_1_2_0_0.lhsIdx j k 2).val = (k ⟨0, Nat.one_pos⟩).val :=
  dot_S16x1024x2048_S16x2048x1024_S16x1024x1024_2_1_1_2_0_0.lhsIdx_val_of_single rfl j k
/-- Second product, right operand: the batch axis reads the expert. -/
theorem rhs_value_0 (j : S16x1024x1024.Idx) (k : dot_S16x1024x2048_S16x2048x1024_S16x1024x1024_2_1_1_2_0_0.contr.Idx) :
    (dot_S16x1024x2048_S16x2048x1024_S16x1024x1024_2_1_1_2_0_0.rhsIdx j k 0).val = (j 0).val := rfl
/-- Second product, right operand: the contracted axis reads the contraction coordinate. -/
theorem rhs_value_1 (j : S16x1024x1024.Idx) (k : dot_S16x1024x2048_S16x2048x1024_S16x1024x1024_2_1_1_2_0_0.contr.Idx) :
    (dot_S16x1024x2048_S16x2048x1024_S16x1024x1024_2_1_1_2_0_0.rhsIdx j k 1).val = (k ⟨0, Nat.one_pos⟩).val :=
  dot_S16x1024x2048_S16x2048x1024_S16x1024x1024_2_1_1_2_0_0.rhsIdx_val_of_single rfl j k
/-- Second product, right operand: the free axis reads the column. -/
theorem rhs_value_2 (j : S16x1024x1024.Idx) (k : dot_S16x1024x2048_S16x2048x1024_S16x1024x1024_2_1_1_2_0_0.contr.Idx) :
    (dot_S16x1024x2048_S16x2048x1024_S16x1024x1024_2_1_1_2_0_0.rhsIdx j k 2).val = (j 2).val := rfl

/-- The first product's left operand at result entry `(e, r, f)` and contraction coordinate `k` is read at `(e, r, k)`. -/
theorem lhsIdx_key (e : Fin 16) (r : Fin 1024) (f : Fin 2048) (k : Fin 1024) :
    dot_S16x1024x1024_S16x1024x2048_S16x1024x2048_2_1_1_2_0_0.lhsIdx (ix3 e r f) ((contrEquiv1 dot_S16x1024x1024_S16x1024x2048_S16x1024x2048_2_1_1_2_0_0 1024 rfl rfl).symm k) = ix3 e r k := by
  have hk := contrEquiv1_symm_val dot_S16x1024x1024_S16x1024x2048_S16x1024x2048_2_1_1_2_0_0 1024 rfl rfl k
  funext a
  refine Fin.ext ?_
  match a with
  | ⟨0, _⟩ => exact lhs_key_0 _ _
  | ⟨1, _⟩ => exact lhs_key_1 _ _
  | ⟨2, _⟩ => exact (lhs_key_2 _ _).trans hk

/-- The first product's right operand there is read at `(e, k, f)`. -/
theorem rhsIdx_key (e : Fin 16) (r : Fin 1024) (f : Fin 2048) (k : Fin 1024) :
    dot_S16x1024x1024_S16x1024x2048_S16x1024x2048_2_1_1_2_0_0.rhsIdx (ix3 e r f) ((contrEquiv1 dot_S16x1024x1024_S16x1024x2048_S16x1024x2048_2_1_1_2_0_0 1024 rfl rfl).symm k) = ix3 e k f := by
  have hk := contrEquiv1_symm_val dot_S16x1024x1024_S16x1024x2048_S16x1024x2048_2_1_1_2_0_0 1024 rfl rfl k
  funext a
  refine Fin.ext ?_
  match a with
  | ⟨0, _⟩ => exact rhs_key_0 _ _
  | ⟨1, _⟩ => exact (rhs_key_1 _ _).trans hk
  | ⟨2, _⟩ => exact rhs_key_2 _ _

/-- The second product's left operand at result entry `(e, r, d)` and contraction coordinate `f` is read at `(e, r, f)`. -/
theorem lhsIdx_value (e : Fin 16) (r : Fin 1024) (d : Fin 1024) (f : Fin 2048) :
    dot_S16x1024x2048_S16x2048x1024_S16x1024x1024_2_1_1_2_0_0.lhsIdx (ix3 e r d) ((contrEquiv1 dot_S16x1024x2048_S16x2048x1024_S16x1024x1024_2_1_1_2_0_0 2048 rfl rfl).symm f) = ix3 e r f := by
  have hf := contrEquiv1_symm_val dot_S16x1024x2048_S16x2048x1024_S16x1024x1024_2_1_1_2_0_0 2048 rfl rfl f
  funext a
  refine Fin.ext ?_
  match a with
  | ⟨0, _⟩ => exact lhs_value_0 _ _
  | ⟨1, _⟩ => exact lhs_value_1 _ _
  | ⟨2, _⟩ => exact (lhs_value_2 _ _).trans hf

/-- The second product's right operand there is read at `(e, f, d)`. -/
theorem rhsIdx_value (e : Fin 16) (r : Fin 1024) (d : Fin 1024) (f : Fin 2048) :
    dot_S16x1024x2048_S16x2048x1024_S16x1024x1024_2_1_1_2_0_0.rhsIdx (ix3 e r d) ((contrEquiv1 dot_S16x1024x2048_S16x2048x1024_S16x1024x1024_2_1_1_2_0_0 2048 rfl rfl).symm f) = ix3 e f d := by
  have hf := contrEquiv1_symm_val dot_S16x1024x2048_S16x2048x1024_S16x1024x1024_2_1_1_2_0_0 2048 rfl rfl f
  funext a
  refine Fin.ext ?_
  match a with
  | ⟨0, _⟩ => exact rhs_value_0 _ _
  | ⟨1, _⟩ => exact (rhs_value_1 _ _).trans hf
  | ⟨2, _⟩ => exact rhs_value_2 _ _

/-! ## The two products read at an entry -/

/-- The first product at `(e, r, f)`: row `r` of expert `e`'s buffer against column `f` of its key weights. -/
theorem key_apply (a : FVec Ideal S16x1024x1024 .f32) (wk : FVec Ideal S16x1024x2048 .f32)
    (e : Fin 16) (r : Fin 1024) (f : Fin 2048) :
    Host.dotGeneral (F := Ideal) dot_S16x1024x1024_S16x1024x2048_S16x1024x2048_2_1_1_2_0_0 none a wk (ix3 e r f) = Cert.Spec.hid a wk e r f := by
  simp only [Host.dotGeneral]
  rw [Ideal.dotGeneral_apply, ← Equiv.sum_comp (contrEquiv1 dot_S16x1024x1024_S16x1024x2048_S16x1024x2048_2_1_1_2_0_0 1024 rfl rfl).symm]
  unfold Cert.Spec.hid
  refine Finset.sum_congr rfl fun k _ => ?_
  rw [lhsIdx_key, rhsIdx_key]

/-- The rectifier's zero operand: the scalar zero word broadcast over the hidden buffer reads `0` everywhere. -/
theorem zero_apply (j : S16x1024x2048.Idx) :
    broadcastInDim S16x1024x2048 ![] bcast_S_S16x1024x2048 (constant (F := Ideal) S_ .f32 0x00000000#32) j = 0 := by
  rw [broadcastInDim_apply ![] bcast_S_S16x1024x2048 _ j ix0 (fun a => a.elim0), constant_apply, Ideal.ofBits_zero_f32]

/-- The reference's expert stage — a batched product, the rectifier against a zero splat, the square, a second batched
    product — is the same feed-forward. -/
theorem ref (a : FVec Ideal S16x1024x1024 .f32) (wk : FVec Ideal S16x1024x2048 .f32) (wv : FVec Ideal S16x2048x1024 .f32) :
    Host.dotGeneral dot_S16x1024x2048_S16x2048x1024_S16x1024x1024_2_1_1_2_0_0 none
        (mulf
          (maximumf (Host.dotGeneral dot_S16x1024x1024_S16x1024x2048_S16x1024x2048_2_1_1_2_0_0 none a wk)
            (broadcastInDim S16x1024x2048 ![] bcast_S_S16x1024x2048 (constant S_ .f32 0x00000000#32)))
          (maximumf (Host.dotGeneral dot_S16x1024x1024_S16x1024x2048_S16x1024x2048_2_1_1_2_0_0 none a wk)
            (broadcastInDim S16x1024x2048 ![] bcast_S_S16x1024x2048 (constant S_ .f32 0x00000000#32))))
        wv
      = Cert.Spec.ffn a wk wv := by
  funext i
  obtain ⟨e, r, d, rfl⟩ : ∃ (e : Fin 16) (r : Fin 1024) (d : Fin 1024), i = ix3 e r d := ⟨i 0, i 1, i 2, eq_ix3 i⟩
  show _ = Cert.Spec.ffnAt a wk wv e r d
  simp only [Host.dotGeneral]
  rw [Ideal.dotGeneral_apply, ← Equiv.sum_comp (contrEquiv1 dot_S16x1024x2048_S16x2048x1024_S16x1024x1024_2_1_1_2_0_0 2048 rfl rfl).symm]
  unfold Cert.Spec.ffnAt
  refine Finset.sum_congr rfl fun f _ => ?_
  rw [lhsIdx_value, rhsIdx_value, mulf_apply, maximumf_apply, zero_apply]
  have h := key_apply a wk e r f
  simp only [Host.dotGeneral] at h
  rw [h]

end Cert.ReferenceIdeal.FfnValue

end
-- ==== Proof.ReceptKernel.lean ====
/-
  The receptance gate and the combine as the second kernel region leaves them over the flat token axis, and the same
  array read through the flattening of (batch, time).
-/
import proofs.«135018_j10591389352191_1_alg».proof.Proof.Gen.KernelIdeal.Frame
import proofs.«135018_j10591389352191_1_alg».proof.Proof.Spec
import proofs.«135018_j10591389352191_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.ReceptValue

open Cert.KernelIdeal Cert.KernelIdeal.Gen

/-- The block offset of the body's one load and one store is zero on both axes. -/
theorem off_zero : (![0, 0] : Fin 2 → Nat) = fun _ => 0 :=
  funext fun a => by match a with | ⟨0, _⟩ => rfl | ⟨1, _⟩ => rfl

/-- The body's arithmetic at entry (p, q) of a block: the matrix unit's product of the first two blocks into a zero
    accumulator is the sum over the shared axis, the narrowing to bf16 changes nothing on the extended reals, and the
    logistic and the product with the third block act entry by entry. -/
theorem pay_apply (x0 x1 x2 : Vec Ideal S1024x1024 .f32) (p q : Fin 1024) :
    k1_pay1 (F := Ideal) x0 x1 x2 (ix2 p q)
      = Ideal.logistic (∑ k : Fin 1024, x0 (ix2 p k) * x1 (ix2 k q)) * x2 (ix2 p q) := by
  unfold k1_pay1
  simp only [shapeCast_self]
  show Ideal.logistic (FloatOps.matmul (F := Ideal) (DotDims.plain 1024 1024 1024) none
      (truncf (F := Ideal) .bf16 x0 bitsLt_bf16_f32) (truncf (F := Ideal) .bf16 x1 bitsLt_bf16_f32)
      (constant (F := Ideal) ⟨2, ![1024, 1024]⟩ .f32 0x00000000#32) (ix2 p q)) * x2 (ix2 p q) = _
  rw [Cert.MatmulPlain.matmul_zero_apply]
  rfl

/-- One block of the result from three blocks that are, entry by entry, rows `n · 1024 + p` of the first and third
    arrays and the whole of the second: at local entry `j` the body's arithmetic is the gated combine at the array
    entry `i` whose row is `n · 1024` plus `j`'s and whose column is `j`'s. -/
theorem block_apply (A0 : S16384x1024.Idx → EReal) (A1 : S1024x1024.Idx → EReal) (A2 : S16384x1024.Idx → EReal)
    (x0 x1 x2 : Vec Ideal S1024x1024 .f32) (n : Nat) (j : S1024x1024.Idx) (i : S16384x1024.Idx)
    (h0 : ∀ (y : S1024x1024.Idx) (i' : S16384x1024.Idx),
      (i' 0).val = n * 1024 + (y 0).val → (i' 1).val = (y 1).val → x0 y = A0 i')
    (h1 : ∀ y : S1024x1024.Idx, x1 y = A1 y)
    (h2 : ∀ (y : S1024x1024.Idx) (i' : S16384x1024.Idx),
      (i' 0).val = n * 1024 + (y 0).val → (i' 1).val = (y 1).val → x2 y = A2 i')
    (hi0 : (i 0).val = n * 1024 + (j 0).val) (hi1 : (i 1).val = (j 1).val) :
    k1_pay1 (F := Ideal) x0 x1 x2 j = Cert.Spec.gated A0 A1 A2 i := by
  obtain ⟨p, q, rfl⟩ : ∃ (p q : Fin 1024), j = ix2 p q := ⟨j 0, j 1, eq_ix2 j⟩
  obtain ⟨a, d, rfl⟩ : ∃ (a : Fin 16384) (d : Fin 1024), i = ix2 a d := ⟨i 0, i 1, eq_ix2 i⟩
  obtain rfl : d = q := Fin.ext hi1
  rw [pay_apply]
  show _ = Ideal.logistic (∑ k : Fin 1024, A0 (ix2 a k) * A1 (ix2 k d)) * A2 (ix2 a d)
  rw [h2 (ix2 p d) (ix2 a d) hi0 rfl]
  refine congrArg (fun s => Ideal.logistic s * A2 (ix2 a d)) (Finset.sum_congr rfl fun k _ => ?_)
  rw [h0 (ix2 p k) (ix2 a k) hi0 rfl, h1]

/-- The printed index maps over the sixteen points: the first, third and output windows' block row is the point, the
    second window's block is always the first, and every block column is the first. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the gated combine of the three input arrays as the region found
    them: each input block is its array read at row `t · 1024 + p` (the weights' block is the whole array). -/
theorem flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (Cert.Spec.gated (V c main_v60) (V c main_v59) (V c main_v61)) := by
  show (cfg1.win 3).cut (grid1.coords t) ((dat1 V c).after 3 t) = _
  rw [after1_3]
  unfold out1_3
  rw [View.canon_unit_zero off_zero]
  simp only [View.ld_unit_zero (S := S1024x1024) off_zero]
  obtain ⟨e0, e1, e2, e3, e4, e5, e6, e7⟩ := idx_facts t
  funext j
  show k1_pay1 (F := Ideal) (iblk1 V c 0 t) (iblk1 V c 1 t) (iblk1 V c 2 t) j
    = Cert.Spec.gated (V c main_v60) (V c main_v59) (V c main_v61) (((cfg1.win 3).blk t).view.emb j)
  refine block_apply (V c main_v60) (V c main_v59) (V c main_v61) (iblk1 V c 0 t) (iblk1 V c 1 t) (iblk1 V c 2 t)
    t.val j (((cfg1.win 3).blk t).view.emb j) ?_ ?_ ?_ ?_ ?_
  · intro y i' h0 h1
    show V c main_v60 (((cfg1.win 0).blk t).view.emb y) = V c main_v60 i'
    refine congrArg _ (funext fun a => Fin.ext ?_)
    match a with
    | ⟨0, _⟩ => show win1_0.index t (0 : Fin 2) * 1024 + 1 * (y 0).val = (i' 0).val; omega
    | ⟨1, _⟩ => show win1_0.index t (1 : Fin 2) * 1024 + 1 * (y 1).val = (i' 1).val; omega
  · intro y
    show V c main_v59 (((cfg1.win 1).blk t).view.emb y) = V c main_v59 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · intro y i' h0 h1
    show V c main_v61 (((cfg1.win 2).blk t).view.emb y) = V c main_v61 i'
    refine congrArg _ (funext fun a => Fin.ext ?_)
    match a with
    | ⟨0, _⟩ => show win1_2.index t (0 : Fin 2) * 1024 + 1 * (y 0).val = (i' 0).val; omega
    | ⟨1, _⟩ => show win1_2.index t (1 : Fin 2) * 1024 + 1 * (y 1).val = (i' 1).val; omega
  · show win1_3.index t (0 : Fin 2) * 1024 + 1 * (j 0).val = t.val * 1024 + (j 0).val; omega
  · show win1_3.index t (1 : Fin 2) * 1024 + 1 * (j 1).val = (j 1).val; omega

/-- An entry of the output array is in point `t`'s block iff each coordinate is in the block's range on its axis. -/
theorem mem_blk (t : Fin cfg1.N) (i : S16384x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v62).slice (win1_3.rect t)).set ↔ _
  rw [View.set_slice_whole, Rect.mem_set_unit]
  exact Iff.rfl

/-- After the second region every block of 1024 tokens has been written: the output array is the gated combine of the
    region's three input arrays as it found them. -/
theorem arr (V : (c : Dev nD) → (b : Ref sig .tc) → Buf (Elt Ideal) ((c : Thread nD τ).loc b)) (c : Dev nD) :
    (dat1 (F := Ideal) V c).arrAt 3 cfg1.N = Cert.Spec.gated (V c main_v60) (V c main_v59) (V c main_v61) := by
  refine (dat1 (F := Ideal) V c).arrAt_eq_of_cover 3 _ (fun t _ => flushed_eq V c t) fun i => ?_
  -- row n lies in the block of point n / 1024
  have hi0 : (i 0).val < 16384 := (i 0).isLt
  have hi1 : (i 1).val < 1024 := (i 1).isLt
  have hlt : (i 0).val / 1024 < cfg1.N := by rw [show cfg1.N = 16 from N_1]; omega
  refine ⟨⟨(i 0).val / 1024, hlt⟩, flush1_3 _, ?_⟩
  rw [mem_blk]
  obtain ⟨-, -, -, -, -, -, e6, e7⟩ := idx_facts ⟨(i 0).val / 1024, hlt⟩
  have e6' : win1_3.index ⟨(i 0).val / 1024, hlt⟩ (0 : Fin 2) = (i 0).val / 1024 := e6
  intro a
  match a with
  | ⟨0, _⟩ =>
    show win1_3.index ⟨(i 0).val / 1024, hlt⟩ (0 : Fin 2) * 1024 ≤ (i 0).val
      ∧ (i 0).val < win1_3.index ⟨(i 0).val / 1024, hlt⟩ (0 : Fin 2) * 1024 + 1024
    omega
  | ⟨1, _⟩ =>
    show win1_3.index ⟨(i 0).val / 1024, hlt⟩ (1 : Fin 2) * 1024 ≤ (i 1).val
      ∧ (i 1).val < win1_3.index ⟨(i 0).val / 1024, hlt⟩ (1 : Fin 2) * 1024 + 1024
    omega

/-- The gated combine of the flattened mix, the transposed weights and the twice-reshaped gathered rows, reshaped back
    to (batch, time, channel): at `(b, t, d)` the logistic of token `(b, t)`'s row against row `d` of the receptance
    weights, times the gathered value there. -/
theorem reshaped (xr : FVec Ideal S8x2048x1024 .f32) (w : FVec Ideal S1024x1024 .f32) (g : FVec Ideal S16384x1024 .f32) :
    shapeCast S8x2048x1024
        (Cert.Spec.gated (shapeCast S16384x1024 xr shapeCasts_S8x2048x1024_S16384x1024)
          (transpose S1024x1024 [1, 0] w transposes_S1024x1024_S1024x1024_1_0)
          (shapeCast S16384x1024 (shapeCast S8x2048x1024 g shapeCasts_S16384x1024_S8x2048x1024) shapeCasts_S8x2048x1024_S16384x1024))
        shapeCasts_S16384x1024_S8x2048x1024
      = fun i => Ideal.logistic (∑ k : Fin 1024, xr (ix3 (i 0) (i 1) k) * w (ix2 (i 2) k))
          * shapeCast S8x2048x1024 g shapeCasts_S16384x1024_S8x2048x1024 i := by
  funext i
  obtain ⟨b, t, d, rfl⟩ : ∃ (b : Fin 8) (t : Fin 2048) (d : Fin 1024), i = ix3 b t d := ⟨i 0, i 1, i 2, eq_ix3 i⟩
  -- entry (b, t, ·) of the three-axis layout is row b · 2048 + t of the flat one
  have hn : b.val * 2048 + t.val < 16384 := by have := b.isLt; have := t.isLt; omega
  have hrow : ∀ e : Fin 1024, (S16384x1024.rowMajor (ix2 ⟨b.val * 2048 + t.val, hn⟩ e)).val
      = (S8x2048x1024.rowMajor (ix3 b t e)).val := fun e => by
    rw [Shape.rowMajor_val_two, Shape.rowMajor_val_three]; rfl
  rw [shapeCast_shapeCast,
    shapeCast_apply (Cert.Spec.gated _ _ g) _ (ix3 b t d) (ix2 ⟨b.val * 2048 + t.val, hn⟩ d) (hrow d),
    shapeCast_apply g _ (ix3 b t d) (ix2 ⟨b.val * 2048 + t.val, hn⟩ d) (hrow d)]
  show Ideal.logistic (∑ k : Fin 1024,
        shapeCast S16384x1024 xr shapeCasts_S8x2048x1024_S16384x1024 (ix2 ⟨b.val * 2048 + t.val, hn⟩ k)
          * transpose S1024x1024 [1, 0] w transposes_S1024x1024_S1024x1024_1_0 (ix2 k d))
      * g (ix2 ⟨b.val * 2048 + t.val, hn⟩ d)
    = Ideal.logistic (∑ k : Fin 1024, xr (ix3 b t k) * w (ix2 d k)) * g (ix2 ⟨b.val * 2048 + t.val, hn⟩ d)
  refine congrArg (fun s => Ideal.logistic s * g (ix2 ⟨b.val * 2048 + t.val, hn⟩ d)) (Finset.sum_congr rfl fun k _ => ?_)
  rw [shapeCast_apply xr _ (ix2 ⟨b.val * 2048 + t.val, hn⟩ k) (ix3 b t k) (hrow k).symm,
    transpose_apply [1, 0] w _ (ix2 k d) (ix2 d k) (fun a => by match a with | ⟨0, _⟩ => rfl | ⟨1, _⟩ => rfl)]

end Cert.KernelIdeal.ReceptValue

end
-- ==== Proof.ReceptRef.lean ====
/-
  The receptance gate and the combine as the reference computes them over (batch, time, channel).
-/
import proofs.«135018_j10591389352191_1_alg».proof.Proof.Gen.ReferenceIdeal
import proofs.«135018_j10591389352191_1_alg».proof.Proof.Spec
import proofs.«135018_j10591389352191_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.ReceptValue

open Cert.ReferenceIdeal Cert.ReferenceIdeal.Gen

/-- The float word of one is the real number one. -/
theorem ofBits_one : Ideal.ofBits .f32 0x3F800000#32 = 1 := by
  simp [Ideal.ofBits, Ideal.ieee, -EReal.coe_mul]; norm_num

/-- The scalar constant one broadcast over (batch, time, channel) is one at every entry: a scalar has one entry. -/
theorem one_apply (i : S8x2048x1024.Idx) :
    broadcastInDim S8x2048x1024 ![] bcast_S_S8x2048x1024 (constant (F := Ideal) S_ .f32 0x3F800000#32) i = 1 := by
  rw [broadcastInDim_apply _ _ _ i (fun a => a.elim0) (fun a => a.elim0), constant_apply, ofBits_one]

/-- The left operand's batch coordinate is the output's. -/
theorem lhs_axis0 (j : S8x2048x1024.Idx) (k : dot_S8x2048x1024_S1024x1024_S8x2048x1024_2_1_01_0_n_n.contr.Idx) :
    (dot_S8x2048x1024_S1024x1024_S8x2048x1024_2_1_01_0_n_n.lhsIdx j k 0).val = (j 0).val := rfl

/-- The left operand's time coordinate is the output's. -/
theorem lhs_axis1 (j : S8x2048x1024.Idx) (k : dot_S8x2048x1024_S1024x1024_S8x2048x1024_2_1_01_0_n_n.contr.Idx) :
    (dot_S8x2048x1024_S1024x1024_S8x2048x1024_2_1_01_0_n_n.lhsIdx j k 1).val = (j 1).val := rfl

/-- The left operand's channel coordinate is the contraction position. -/
theorem lhs_axis2 (j : S8x2048x1024.Idx) (k : dot_S8x2048x1024_S1024x1024_S8x2048x1024_2_1_01_0_n_n.contr.Idx) :
    (dot_S8x2048x1024_S1024x1024_S8x2048x1024_2_1_01_0_n_n.lhsIdx j k 2).val = (k ⟨0, by decide⟩).val :=
  dot_S8x2048x1024_S1024x1024_S8x2048x1024_2_1_01_0_n_n.lhsIdx_val_of_single rfl j k

/-- The weights' row coordinate is the output's channel. -/
theorem rhs_axis0 (j : S8x2048x1024.Idx) (k : dot_S8x2048x1024_S1024x1024_S8x2048x1024_2_1_01_0_n_n.contr.Idx) :
    (dot_S8x2048x1024_S1024x1024_S8x2048x1024_2_1_01_0_n_n.rhsIdx j k 0).val = (j 2).val := rfl

/-- The weights' column coordinate is the contraction position. -/
theorem rhs_axis1 (j : S8x2048x1024.Idx) (k : dot_S8x2048x1024_S1024x1024_S8x2048x1024_2_1_01_0_n_n.contr.Idx) :
    (dot_S8x2048x1024_S1024x1024_S8x2048x1024_2_1_01_0_n_n.rhsIdx j k 1).val = (k ⟨0, by decide⟩).val :=
  dot_S8x2048x1024_S1024x1024_S8x2048x1024_2_1_01_0_n_n.rhsIdx_val_of_single rfl j k

/-- At output `(b, t, d)` and contraction position `k` the left operand is read at `(b, t, k)`. -/
theorem lhsIdx_eq (b : Fin 8) (t : Fin 2048) (d : Fin 1024) (k : Fin 1024) :
    dot_S8x2048x1024_S1024x1024_S8x2048x1024_2_1_01_0_n_n.lhsIdx (ix3 b t d)
        ((contrEquiv1 dot_S8x2048x1024_S1024x1024_S8x2048x1024_2_1_01_0_n_n 1024 rfl rfl).symm k) = ix3 b t k := by
  have hk := contrEquiv1_symm_val dot_S8x2048x1024_S1024x1024_S8x2048x1024_2_1_01_0_n_n 1024 rfl rfl k
  funext a
  refine Fin.ext ?_
  match a with
  | ⟨0, _⟩ => exact lhs_axis0 _ _
  | ⟨1, _⟩ => exact lhs_axis1 _ _
  | ⟨2, _⟩ => exact (lhs_axis2 _ _).trans hk

/-- There the weights are read at `(d, k)`: the contraction runs along their second axis. -/
theorem rhsIdx_eq (b : Fin 8) (t : Fin 2048) (d : Fin 1024) (k : Fin 1024) :
    dot_S8x2048x1024_S1024x1024_S8x2048x1024_2_1_01_0_n_n.rhsIdx (ix3 b t d)
        ((contrEquiv1 dot_S8x2048x1024_S1024x1024_S8x2048x1024_2_1_01_0_n_n 1024 rfl rfl).symm k) = ix2 d k := by
  have hk := contrEquiv1_symm_val dot_S8x2048x1024_S1024x1024_S8x2048x1024_2_1_01_0_n_n 1024 rfl rfl k
  funext a
  refine Fin.ext ?_
  match a with
  | ⟨0, _⟩ => exact rhs_axis0 _ _
  | ⟨1, _⟩ => exact (rhs_axis1 _ _).trans hk

/-- The product at `(b, t, d)`: row `(b, t)` of the mix against row `d` of the weights. -/
theorem dot_apply (xr : FVec Ideal S8x2048x1024 .f32) (w : FVec Ideal S1024x1024 .f32) (b : Fin 8) (t : Fin 2048) (d : Fin 1024) :
    Host.dotGeneral (F := Ideal) dot_S8x2048x1024_S1024x1024_S8x2048x1024_2_1_01_0_n_n none xr w (ix3 b t d)
      = ∑ k : Fin 1024, xr (ix3 b t k) * w (ix2 d k) := by
  simp only [Host.dotGeneral]
  rw [Ideal.dotGeneral_apply,
    ← Equiv.sum_comp (contrEquiv1 dot_S8x2048x1024_S1024x1024_S8x2048x1024_2_1_01_0_n_n 1024 rfl rfl).symm]
  refine Finset.sum_congr rfl fun k _ => ?_
  rw [lhsIdx_eq, rhsIdx_eq]

/-- The reference's last stage — the product of the mix with the receptance weights contracted on their second axis,
    then one over one plus the exponential of its negation, times the gathered rows — entry by entry. -/
theorem ref (xr : FVec Ideal S8x2048x1024 .f32) (w : FVec Ideal S1024x1024 .f32) (y : FVec Ideal S8x2048x1024 .f32) :
    mulf
        (Host.divf (broadcastInDim S8x2048x1024 ![] bcast_S_S8x2048x1024 (constant S_ .f32 0x3F800000#32))
          (addf (broadcastInDim S8x2048x1024 ![] bcast_S_S8x2048x1024 (constant S_ .f32 0x3F800000#32))
            (Host.exp (Host.negf (Host.dotGeneral dot_S8x2048x1024_S1024x1024_S8x2048x1024_2_1_01_0_n_n none xr w)))))
        y
      = fun i => Ideal.logistic (∑ k : Fin 1024, xr (ix3 (i 0) (i 1) k) * w (ix2 (i 2) k)) * y i := by
  funext i
  obtain ⟨b, t, d, rfl⟩ : ∃ (b : Fin 8) (t : Fin 2048) (d : Fin 1024), i = ix3 b t d := ⟨i 0, i 1, i 2, eq_ix3 i⟩
  rw [mulf_apply]
  show Ideal.div
      (broadcastInDim S8x2048x1024 ![] bcast_S_S8x2048x1024 (constant (F := Ideal) S_ .f32 0x3F800000#32) (ix3 b t d))
      (broadcastInDim S8x2048x1024 ![] bcast_S_S8x2048x1024 (constant (F := Ideal) S_ .f32 0x3F800000#32) (ix3 b t d)
        + Ideal.exp (-(Host.dotGeneral (F := Ideal) dot_S8x2048x1024_S1024x1024_S8x2048x1024_2_1_01_0_n_n none xr w (ix3 b t d))))
      * y (ix3 b t d) = _
  rw [one_apply, dot_apply]
  rfl

end Cert.ReferenceIdeal.ReceptValue

end
-- ==== Proof.Reads.lean ====
/-
  What the host operations around the two kernel regions, and the reference's operations after the dispatch, compute —
  read off the operation lists as functions of the buffers they start from. The combine by slot is one function on
  both sides: the experts' output rows with a zero row appended for the dummy slot, gathered by each token's slot.
-/
import proofs.«135018_j10591389352191_1_alg».proof.Proof.Gen.KernelIdeal.Launch
import proofs.«135018_j10591389352191_1_alg».proof.Proof.RefRun
import proofs.«135018_j10591389352191_1_alg».proof.Proof.Prefix
import proofs.«135018_j10591389352191_1_alg».proof.Proof.FfnRef
import proofs.«135018_j10591389352191_1_alg».proof.Proof.ReceptKernel
import proofs.«135018_j10591389352191_1_alg».proof.Proof.ReceptRef
import Idealize.ShloMosaic.PureOps.Ideal

set_option maxRecDepth 16384

noncomputable section

open scoped BigOperators
open Idealize.ShloMosaic Idealize.ShloMosaic.TcCoe Idealize.ShloMosaic.ValueIdx Idealize.SL.Sem Idealize.ShloMosaic.StableHlo

namespace Cert.Bridge

local notation "KV" => Valuation Cert.KernelIdeal.τ Cert.KernelIdeal.sig (Elt Ideal)
local notation "RV" => Valuation Cert.ReferenceIdeal.τ Cert.ReferenceIdeal.sig (Elt Ideal)

/-- The combine by slot, as the kernel program spells it: the experts' output rows with a zero row appended for the dummy
    slot, gathered by each token's slot (a negative slot counted from the end, as the gather's index rule has it). -/
def rowsK (eout : FVec Ideal Cert.KernelIdeal.S16x1024x1024 .f32) (slot : IVec Cert.KernelIdeal.S16384 32) : FVec Ideal Cert.KernelIdeal.S16384x1024 .f32 :=
  Host.gather Cert.KernelIdeal.gather_S16385x1024_S16384x1_S16384x1024_1_0_n_n_0_1_11024
    (concatenate Cert.KernelIdeal.S16385x1024 0
      [⟨Cert.KernelIdeal.S16384x1024, shapeCast Cert.KernelIdeal.S16384x1024 eout Cert.KernelIdeal.Gen.shapeCasts_S16x1024x1024_S16384x1024⟩,
        ⟨Cert.KernelIdeal.S1x1024, broadcastInDim Cert.KernelIdeal.S1x1024 ![] Cert.KernelIdeal.Gen.bcast_S_S1x1024 (constant (F := Ideal) Cert.KernelIdeal.S_ .f32 0x00000000#32)⟩]
      Cert.KernelIdeal.Gen.concatenates_S16384x1024_S1x1024_S16385x1024_d0)
    (broadcastInDim Cert.KernelIdeal.S16384x1 ![0] Cert.KernelIdeal.Gen.bcast_S16384_S16384x1_0
      (select (cmpi .slt slot (broadcastInDim Cert.KernelIdeal.S16384 ![] Cert.KernelIdeal.Gen.bcast_S_S16384 (constantI Cert.KernelIdeal.S_ 32 0#32)))
        (addi slot (broadcastInDim Cert.KernelIdeal.S16384 ![] Cert.KernelIdeal.Gen.bcast_S_S16384 (constantI Cert.KernelIdeal.S_ 32 16385#32))) slot))

/-- The same combine as the reference spells it. -/
def rowsR (eout : FVec Ideal Cert.ReferenceIdeal.S16x1024x1024 .f32) (slot : IVec Cert.ReferenceIdeal.S16384 32) : FVec Ideal Cert.ReferenceIdeal.S16384x1024 .f32 :=
  Host.gather Cert.ReferenceIdeal.gather_S16385x1024_S16384x1_S16384x1024_1_0_n_n_0_1_11024
    (concatenate Cert.ReferenceIdeal.S16385x1024 0
      [⟨Cert.ReferenceIdeal.S16384x1024, shapeCast Cert.ReferenceIdeal.S16384x1024 eout Cert.ReferenceIdeal.Gen.shapeCasts_S16x1024x1024_S16384x1024⟩,
        ⟨Cert.ReferenceIdeal.S1x1024, broadcastInDim Cert.ReferenceIdeal.S1x1024 ![] Cert.ReferenceIdeal.Gen.bcast_S_S1x1024 (constant (F := Ideal) Cert.ReferenceIdeal.S_ .f32 0x00000000#32)⟩]
      Cert.ReferenceIdeal.Gen.concatenates_S16384x1024_S1x1024_S16385x1024_d0)
    (broadcastInDim Cert.ReferenceIdeal.S16384x1 ![0] Cert.ReferenceIdeal.Gen.bcast_S16384_S16384x1_0
      (select (cmpi .slt slot (broadcastInDim Cert.ReferenceIdeal.S16384 ![] Cert.ReferenceIdeal.Gen.bcast_S_S16384 (constantI Cert.ReferenceIdeal.S_ 32 0#32)))
        (addi slot (broadcastInDim Cert.ReferenceIdeal.S16384 ![] Cert.ReferenceIdeal.Gen.bcast_S_S16384 (constantI Cert.ReferenceIdeal.S_ 32 16385#32))) slot))

attribute [local irreducible] Host.gather concatenate broadcastInDim constant constantI select cmpi addi in
/-- The two spellings are one function. -/
theorem rows_eq (eout : FVec Ideal Cert.KernelIdeal.S16x1024x1024 .f32) (slot : IVec Cert.KernelIdeal.S16384 32) : rowsK eout slot = rowsR eout slot := rfl

/-! ## The buffers the readings are stated over, each at its literal type -/

abbrev kMix (VK : KV) : FVec Ideal Cert.KernelIdeal.S8x2048x1024 .f32 := VK (Proc.devRef .tc Cert.KernelIdeal.main_v11)
abbrev kRecept (VK : KV) : FVec Ideal Cert.KernelIdeal.S1024x1024 .f32 := VK (Proc.devRef .tc Cert.KernelIdeal.main_arg5)
abbrev kExperts (VK : KV) : FVec Ideal Cert.KernelIdeal.S16x1024x1024 .f32 := VK (Proc.devRef .tc Cert.KernelIdeal.main_v47)
abbrev kSlot (VK : KV) : IVec Cert.KernelIdeal.S16384 32 := VK (Proc.devRef .tc Cert.KernelIdeal.main_v34)
abbrev rMix (VR : RV) : FVec Ideal Cert.ReferenceIdeal.S8x2048x1024 .f32 := VR (Proc.devRef .tc Cert.ReferenceIdeal.main_v11)
abbrev rRecept (VR : RV) : FVec Ideal Cert.ReferenceIdeal.S1024x1024 .f32 := VR (Proc.devRef .tc Cert.ReferenceIdeal.main_arg5)
abbrev rDispatched (VR : RV) : FVec Ideal Cert.ReferenceIdeal.S16x1024x1024 .f32 := VR (Proc.devRef .tc Cert.ReferenceIdeal.main_v45)
abbrev rKeyW (VR : RV) : FVec Ideal Cert.ReferenceIdeal.S16x1024x2048 .f32 := VR (Proc.devRef .tc Cert.ReferenceIdeal.main_arg6)
abbrev rValueW (VR : RV) : FVec Ideal Cert.ReferenceIdeal.S16x2048x1024 .f32 := VR (Proc.devRef .tc Cert.ReferenceIdeal.main_arg7)
abbrev rSlot (VR : RV) : IVec Cert.ReferenceIdeal.S16384 32 := VR (Proc.devRef .tc Cert.ReferenceIdeal.main_v34)

/-! ## The kernel program: between its two regions, and after the second -/

attribute [local irreducible] Host.gather concatenate Host.exp Host.negf Host.divf mulf addf maximumf broadcastInDim constant constantI select cmpi addi transpose Cert.Spec.gated Cert.Spec.ffn in
/-- The second region's first operand is the receptance mix with its token axes flattened. -/
theorem k60 (VK : KV) : after (Cert.KernelIdeal.Gen.hostOps1 (F := Ideal)) VK (Proc.devRef .tc Cert.KernelIdeal.main_v60)
    = shapeCast Cert.KernelIdeal.S16384x1024 (kMix VK) Cert.KernelIdeal.Gen.shapeCasts_S8x2048x1024_S16384x1024 := by
  read_through; rfl

attribute [local irreducible] Host.gather concatenate Host.exp Host.negf Host.divf mulf addf maximumf broadcastInDim constant constantI select cmpi addi transpose Cert.Spec.gated Cert.Spec.ffn in
/-- Its second operand is the transposed receptance weights. -/
theorem k59 (VK : KV) : after (Cert.KernelIdeal.Gen.hostOps1 (F := Ideal)) VK (Proc.devRef .tc Cert.KernelIdeal.main_v59)
    = transpose Cert.KernelIdeal.S1024x1024 [1, 0] (kRecept VK) Cert.KernelIdeal.Gen.transposes_S1024x1024_S1024x1024_1_0 := by
  read_through

attribute [local irreducible] Host.gather concatenate Host.exp Host.negf Host.divf mulf addf maximumf broadcastInDim constant constantI select cmpi addi transpose Cert.Spec.gated Cert.Spec.ffn in
/-- Its third operand is the combine by slot of the first region's output, reshaped to (batch, time, channel) and back. -/
theorem k61 (VK : KV) : after (Cert.KernelIdeal.Gen.hostOps1 (F := Ideal)) VK (Proc.devRef .tc Cert.KernelIdeal.main_v61)
    = shapeCast Cert.KernelIdeal.S16384x1024 (shapeCast Cert.KernelIdeal.S8x2048x1024 (rowsK (kExperts VK) (kSlot VK)) Cert.KernelIdeal.Gen.shapeCasts_S16384x1024_S8x2048x1024)
        Cert.KernelIdeal.Gen.shapeCasts_S8x2048x1024_S16384x1024 := by
  read_through; rfl

attribute [local irreducible] Host.gather concatenate Host.exp Host.negf Host.divf mulf addf maximumf broadcastInDim constant constantI select cmpi addi transpose Cert.Spec.gated Cert.Spec.ffn in
/-- After the last host operation the result is the second region's output array in (batch, time, channel) shape. -/
theorem k63 (VK : KV) : after (Cert.KernelIdeal.Gen.hostOps2 (F := Ideal)) VK (Proc.devRef .tc Cert.KernelIdeal.main_v63)
    = shapeCast Cert.KernelIdeal.S8x2048x1024 (VK (Proc.devRef .tc Cert.KernelIdeal.main_v62)) Cert.KernelIdeal.Gen.shapeCasts_S16384x1024_S8x2048x1024 := by
  read_through; rfl

/-- So the gated combine of the second region's operands, in (batch, time, channel) shape: at `(b, t, d)` the logistic of
    token `(b, t)`'s mixed row against row `d` of the receptance weights, times the combined row's entry. -/
theorem kernel_gate (VK : KV) :
    shapeCast Cert.KernelIdeal.S8x2048x1024
        (Cert.Spec.gated (after (Cert.KernelIdeal.Gen.hostOps1 (F := Ideal)) VK (Proc.devRef .tc Cert.KernelIdeal.main_v60)) (after (Cert.KernelIdeal.Gen.hostOps1 (F := Ideal)) VK (Proc.devRef .tc Cert.KernelIdeal.main_v59))
          (after (Cert.KernelIdeal.Gen.hostOps1 (F := Ideal)) VK (Proc.devRef .tc Cert.KernelIdeal.main_v61)))
        Cert.KernelIdeal.Gen.shapeCasts_S16384x1024_S8x2048x1024
      = fun i => Ideal.logistic (∑ k : Fin 1024, (kMix VK) (ix3 (i 0) (i 1) k) * (kRecept VK) (ix2 (i 2) k))
          * shapeCast Cert.KernelIdeal.S8x2048x1024 (rowsK (kExperts VK) (kSlot VK)) Cert.KernelIdeal.Gen.shapeCasts_S16384x1024_S8x2048x1024 i := by
  rw [k60, k59, k61]
  exact Cert.KernelIdeal.ReceptValue.reshaped (kMix VK) (kRecept VK) (rowsK (kExperts VK) (kSlot VK))

/-! ## The reference: everything after the dispatch -/

attribute [local irreducible] Host.gather concatenate Host.exp Host.negf Host.divf mulf addf maximumf broadcastInDim constant constantI select cmpi addi transpose Cert.Spec.gated Cert.Spec.ffn in
/-- The reference's result as its operations spell it: the gate's host expansion times the combine by slot of the two
    batched products with the squared rectifier between. -/
theorem r68 (VR : RV) : after (Cert.ReferenceIdeal.Ops.r9 (F := Ideal)) VR (Proc.devRef .tc Cert.ReferenceIdeal.main_v68)
    = mulf
        (Host.divf (broadcastInDim Cert.ReferenceIdeal.S8x2048x1024 ![] Cert.ReferenceIdeal.Gen.bcast_S_S8x2048x1024 (constant Cert.ReferenceIdeal.S_ .f32 0x3F800000#32))
          (addf (broadcastInDim Cert.ReferenceIdeal.S8x2048x1024 ![] Cert.ReferenceIdeal.Gen.bcast_S_S8x2048x1024 (constant Cert.ReferenceIdeal.S_ .f32 0x3F800000#32))
            (Host.exp (Host.negf (Host.dotGeneral Cert.ReferenceIdeal.dot_S8x2048x1024_S1024x1024_S8x2048x1024_2_1_01_0_n_n none (rMix VR) (rRecept VR))))))
        (shapeCast Cert.ReferenceIdeal.S8x2048x1024
          (rowsR (Host.dotGeneral Cert.ReferenceIdeal.dot_S16x1024x2048_S16x2048x1024_S16x1024x1024_2_1_1_2_0_0 none
        (mulf
          (maximumf (Host.dotGeneral Cert.ReferenceIdeal.dot_S16x1024x1024_S16x1024x2048_S16x1024x2048_2_1_1_2_0_0 none (rDispatched VR) (rKeyW VR))
            (broadcastInDim Cert.ReferenceIdeal.S16x1024x2048 ![] Cert.ReferenceIdeal.Gen.bcast_S_S16x1024x2048 (constant Cert.ReferenceIdeal.S_ .f32 0x00000000#32)))
          (maximumf (Host.dotGeneral Cert.ReferenceIdeal.dot_S16x1024x1024_S16x1024x2048_S16x1024x2048_2_1_1_2_0_0 none (rDispatched VR) (rKeyW VR))
            (broadcastInDim Cert.ReferenceIdeal.S16x1024x2048 ![] Cert.ReferenceIdeal.Gen.bcast_S_S16x1024x2048 (constant Cert.ReferenceIdeal.S_ .f32 0x00000000#32))))
        (rValueW VR)) (rSlot VR))
          Cert.ReferenceIdeal.Gen.shapeCasts_S16384x1024_S8x2048x1024) := by
  read_through; rfl

/-- So the reference's result at `(b, t, d)`: the same gate, times the combined row's entry of the feed-forward of the
    dispatched buffer. -/
theorem reference_gate (VR : RV) : after (Cert.ReferenceIdeal.Ops.r9 (F := Ideal)) VR (Proc.devRef .tc Cert.ReferenceIdeal.main_v68)
    = fun i => Ideal.logistic (∑ k : Fin 1024, (rMix VR) (ix3 (i 0) (i 1) k) * (rRecept VR) (ix2 (i 2) k))
        * shapeCast Cert.ReferenceIdeal.S8x2048x1024 (rowsR (Cert.Spec.ffn (rDispatched VR) (rKeyW VR) (rValueW VR)) (rSlot VR))
            Cert.ReferenceIdeal.Gen.shapeCasts_S16384x1024_S8x2048x1024 i := by
  rw [r68, Cert.ReferenceIdeal.FfnValue.ref]
  exact Cert.ReferenceIdeal.ReceptValue.ref (rMix VR) (rRecept VR) _

end Cert.Bridge

end
-- ==== Proof.FfnKernel.lean ====
/-
  The experts' feed-forward as the first kernel region leaves it: every (expert, row block) point writes its block of
  the output array, and the blocks tile it, so the array ends as one function of the region's three input arrays.
-/
import proofs.«135018_j10591389352191_1_alg».proof.Proof.Gen.KernelIdeal.Frame
import proofs.«135018_j10591389352191_1_alg».proof.Proof.Spec
import proofs.«135018_j10591389352191_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.FfnValue

open Cert.KernelIdeal Cert.KernelIdeal.Gen

/-- The first product of a block at hidden entry (p, f): row p of the token block against column f of the key block. -/
theorem hidden_apply (x0 : Vec Ideal S1x256x1024 .bf16) (x1 : Vec Ideal S1x1024x2048 .f32) (p : Fin 256) (f : Fin 2048) :
    matmul (F := Ideal) dot_S256x1024_S1024x2048_S256x2048_1_0_0_1_n_n none
        (shapeCast S256x1024 x0 shapeCasts_S1x256x1024_S256x1024 : FVec Ideal S256x1024 .bf16)
        (truncf .bf16 (shapeCast S1024x2048 x1 shapeCasts_S1x1024x2048_S1024x2048 : FVec Ideal S1024x2048 .f32) bitsLt_bf16_f32 : FVec Ideal S1024x2048 .bf16)
        (constant S256x2048 .f32 0x00000000#32) (ix2 p f)
      = ∑ k : Fin 1024, x0 (ix3 (0 : Fin 1) p k) * x1 (ix3 (0 : Fin 1) k f) := by
  refine (Cert.MatmulPlain.matmul_zero_apply (M := 256) (K := 1024) (N := 2048) none _ _ p f).trans ?_
  refine Finset.sum_congr rfl fun k _ => ?_
  rw [truncf_apply, shapeCast_1ab_ab_apply, shapeCast_1ab_ab_apply]

/-- A block's entry (p, q): row p of the token block through the key block, rectified and squared, against column q of
    the value block. -/
theorem pay_apply (x0 : Vec Ideal S1x256x1024 .bf16) (x1 : Vec Ideal S1x1024x2048 .f32) (x2 : Vec Ideal S1x2048x1024 .f32)
    (u : Fin 1) (p : Fin 256) (q : Fin 1024) :
    k0_pay1 x0 x1 x2 (ix3 u p q)
      = ∑ f : Fin 2048, (max (∑ k : Fin 1024, x0 (ix3 (0 : Fin 1) p k) * x1 (ix3 (0 : Fin 1) k f)) 0
          * max (∑ k : Fin 1024, x0 (ix3 (0 : Fin 1) p k) * x1 (ix3 (0 : Fin 1) k f)) 0) * x2 (ix3 (0 : Fin 1) f q) := by
  unfold k0_pay1
  rw [shapeCast_ab_1ab_apply]
  refine (Cert.MatmulPlain.matmul_zero_apply (M := 256) (K := 2048) (N := 1024) none _ _ p q).trans ?_
  refine Finset.sum_congr rfl fun f _ => ?_
  rw [truncf_apply, mulf_apply, maximumf_apply, broadcast_apply, hidden_apply, truncf_apply, shapeCast_1ab_ab_apply]
  show max _ (Ideal.ofBits .f32 0x00000000#32) * max _ (Ideal.ofBits .f32 0x00000000#32) * _ = _
  rw [Ideal.ofBits_zero_f32]

/-- The zero offset of an access to a whole block. -/
theorem hz : (![0, 0, 0] : Fin 3 → Nat) = fun _ => 0 := funext fun a => by fin_cases a <;> rfl

/-- The windows' block indices over the grid: at point t the output's block is (t / 4, t % 4, 0); the token block moves with
    it; the two weight blocks are expert t / 4's whole matrices. -/
theorem idx_facts : ∀ t : Fin cfg0.N,
    win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- A block's entry (p, q) is the feed-forward at (e, r, d) once the block's row p is the buffer's row r of expert e,
    its key and value blocks are expert e's matrices, and its column q is channel d. -/
theorem block_entry (x0 : Vec Ideal S1x256x1024 .bf16) (x1 : Vec Ideal S1x1024x2048 .f32) (x2 : Vec Ideal S1x2048x1024 .f32)
    (a : S16x1024x1024.Idx → EReal) (wk : S16x1024x2048.Idx → EReal) (wv : S16x2048x1024.Idx → EReal)
    (u : Fin 1) (p : Fin 256) (q : Fin 1024) (e : Fin 16) (r : Fin 1024) (d : Fin 1024)
    (h0 : ∀ k : Fin 1024, x0 (ix3 (0 : Fin 1) p k) = a (ix3 e r k))
    (h1 : ∀ (k : Fin 1024) (f : Fin 2048), x1 (ix3 (0 : Fin 1) k f) = wk (ix3 e k f))
    (h2 : ∀ f : Fin 2048, x2 (ix3 (0 : Fin 1) f q) = wv (ix3 e f d)) :
    k0_pay1 x0 x1 x2 (ix3 u p q) = Cert.Spec.ffnAt a wk wv e r d := by
  rw [pay_apply]
  unfold Cert.Spec.ffnAt Cert.Spec.hid
  refine Finset.sum_congr rfl fun f _ => ?_
  rw [h2 f]
  simp only [h0, h1]

/-- What point t writes back is block t of the feed-forward of the three input arrays. -/
theorem flushed_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal) (Cert.Spec.ffn (V c main_v46) (V c main_arg6) (V c main_arg7)) := by
  show (cfg0.win 3).cut (grid0.coords t) ((dat0 V c).after 3 t) = _
  rw [after0_3]
  unfold out0_3
  rw [View.canon_unit_zero hz]
  simp only [View.ld_unit_zero (S := S1x256x1024) hz, View.ld_unit_zero (S := S1x1024x2048) hz,
    View.ld_unit_zero (S := S1x2048x1024) hz]
  obtain ⟨e0, e1, e2, a0, a1, a2, b0, b1, b2, c0, c1, c2⟩ := idx_facts t
  refine funext fun (j : S1x256x1024.Idx) => ?_
  obtain ⟨u, p, q, rfl⟩ : ∃ (u : Fin 1) (p : Fin 256) (q : Fin 1024), j = ix3 u p q := ⟨j 0, j 1, j 2, eq_ix3 j⟩
  show k0_pay1 (iblk0 V c 0 t) (iblk0 V c 1 t) (iblk0 V c 2 t) (ix3 u p q)
      = Cert.Spec.ffnAt (V c main_v46) (V c main_arg6) (V c main_arg7)
          (((cfg0.win 3).blk t).view.emb (ix3 u p q) 0) (((cfg0.win 3).blk t).view.emb (ix3 u p q) 1)
          (((cfg0.win 3).blk t).view.emb (ix3 u p q) 2)
  have hu : u.val = 0 := by omega
  refine block_entry _ _ _ _ _ _ u p q _ _ _ (fun k => ?_) (fun k f => ?_) (fun f => ?_)
  · show V c main_v46 (((cfg0.win 0).blk t).view.emb (ix3 (0 : Fin 1) p k)) = V c main_v46 _
    refine congrArg _ (funext fun a => Fin.ext ?_)
    match a with
    | ⟨0, _⟩ =>
      show win0_0.index t (0 : Fin 3) * 1 + 1 * (0 : Fin 1).val = win0_3.index t (0 : Fin 3) * 1 + 1 * u.val
      rw [a0, e0, hu]; rfl
    | ⟨1, _⟩ =>
      show win0_0.index t (1 : Fin 3) * 256 + 1 * p.val = win0_3.index t (1 : Fin 3) * 256 + 1 * p.val
      rw [a1, e1]
    | ⟨2, _⟩ =>
      show win0_0.index t (2 : Fin 3) * 1024 + 1 * k.val = k.val
      rw [a2]; omega
  · show V c main_arg6 (((cfg0.win 1).blk t).view.emb (ix3 (0 : Fin 1) k f)) = V c main_arg6 _
    refine congrArg _ (funext fun a => Fin.ext ?_)
    match a with
    | ⟨0, _⟩ =>
      show win0_1.index t (0 : Fin 3) * 1 + 1 * (0 : Fin 1).val = win0_3.index t (0 : Fin 3) * 1 + 1 * u.val
      rw [b0, e0, hu]; rfl
    | ⟨1, _⟩ =>
      show win0_1.index t (1 : Fin 3) * 1024 + 1 * k.val = k.val
      rw [b1]; omega
    | ⟨2, _⟩ =>
      show win0_1.index t (2 : Fin 3) * 2048 + 1 * f.val = f.val
      rw [b2]; omega
  · show V c main_arg7 (((cfg0.win 2).blk t).view.emb (ix3 (0 : Fin 1) f q)) = V c main_arg7 _
    refine congrArg _ (funext fun a => Fin.ext ?_)
    match a with
    | ⟨0, _⟩ =>
      show win0_2.index t (0 : Fin 3) * 1 + 1 * (0 : Fin 1).val = win0_3.index t (0 : Fin 3) * 1 + 1 * u.val
      rw [c0, e0, hu]; rfl
    | ⟨1, _⟩ =>
      show win0_2.index t (1 : Fin 3) * 2048 + 1 * f.val = f.val
      rw [c1]; omega
    | ⟨2, _⟩ =>
      show win0_2.index t (2 : Fin 3) * 1024 + 1 * q.val = win0_3.index t (2 : Fin 3) * 1024 + 1 * q.val
      rw [c2, e2]

/-- An index of the output array is in point t's block iff each coordinate is in the block's range on its axis. -/
theorem mem_blk (t : Fin cfg0.N) (i : S16x1024x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v47).slice (win0_3.rect t)).set ↔ _
  rw [View.set_slice_whole, Rect.mem_set_unit]
  exact Iff.rfl

/-- The blocks tile the array: entry (e, r, d) lies in the block of point 4 e + r / 256. -/
theorem cover (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  have hN : cfg0.N = 64 := N_0
  obtain ⟨t, ht⟩ : ∃ t : Fin cfg0.N, t.val = (i 0).val * 4 + (i 1).val / 256 :=
    ⟨⟨(i 0).val * 4 + (i 1).val / 256, by rw [hN]; omega⟩, rfl⟩
  refine ⟨t, flush0_3 t, ?_⟩
  rw [mem_blk]
  obtain ⟨e0, e1, e2, -⟩ := idx_facts t
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 256 ≤ (i 1).val ∧ (i 1).val < win0_3.index t (1 : Fin 3) * 256 + 256
    rw [e1, ht]; omega
  | ⟨2, _⟩ =>
    show win0_3.index t (2 : Fin 3) * 1024 ≤ (i 2).val ∧ (i 2).val < win0_3.index t (2 : Fin 3) * 1024 + 1024
    rw [e2]; omega

/-- After the first region every row block of every expert has been written: the output array is the feed-forward of
    the region's three input arrays as it found them. -/
theorem arr (V : (c : Dev nD) → (b : Ref sig .tc) → Buf (Elt Ideal) ((c : Thread nD τ).loc b)) (c : Dev nD) :
    (dat0 (F := Ideal) V c).arrAt 3 cfg0.N = Cert.Spec.ffn (V c main_v46) (V c main_arg6) (V c main_arg7) :=
  (dat0 (F := Ideal) V c).arrAt_eq_of_cover 3 (Cert.Spec.ffn (V c main_v46) (V c main_arg6) (V c main_arg7))
    (fun t _ => flushed_eq V c t) cover

end Cert.KernelIdeal.FfnValue

end
-- ==== Proof.Chain.lean ====
/-
  The two programs' results side by side. Through the shared host operations their buffers agree; the kernel program's
  first region leaves the feed-forward of the dispatched buffer, which is what the reference's two batched products
  with the squared rectifier between them compute; the gathered rows are then the same; and the second region's output,
  read through the flattening of the token axes, is the reference's gate times those rows.
-/
import proofs.«135018_j10591389352191_1_alg».proof.Proof.Gen.KernelIdeal.Frame
import proofs.«135018_j10591389352191_1_alg».proof.Proof.RefRun
import proofs.«135018_j10591389352191_1_alg».proof.Proof.Prefix
import proofs.«135018_j10591389352191_1_alg».proof.Proof.Dispatch
import proofs.«135018_j10591389352191_1_alg».proof.Proof.Reads
import proofs.«135018_j10591389352191_1_alg».proof.Proof.FfnKernel
import proofs.«135018_j10591389352191_1_alg».proof.Proof.FfnRef
import proofs.«135018_j10591389352191_1_alg».proof.Proof.ReceptKernel
import proofs.«135018_j10591389352191_1_alg».proof.Proof.ReceptRef
import Idealize.ShloMosaic.PureOps.Ideal
import Idealize.ShloMosaic.PureOps.Ideal.Laws

set_option maxRecDepth 16384

noncomputable section

open Idealize.ShloMosaic Idealize.ShloMosaic.TcCoe Idealize.SL.Sem Idealize.ShloMosaic.StableHlo

namespace Cert.Bridge

local notation "KV" => Valuation Cert.KernelIdeal.τ Cert.KernelIdeal.sig (Elt Ideal)
local notation "RV" => Valuation Cert.ReferenceIdeal.τ Cert.ReferenceIdeal.sig (Elt Ideal)

/-! ## The two runs' results -/

/-- The reference's buffers at launch and after each of its first nine stretches. -/
abbrev X0 (m' : (ℓ : Loc Cert.ReferenceIdeal.nD Cert.ReferenceIdeal.τ Cert.ReferenceIdeal.sig) → Buf (Elt Ideal) ℓ) (c : Dev Cert.ReferenceIdeal.nD) : RV := launchContents m' c
abbrev X1 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r0 (F := Ideal)) (X0 m' c)
abbrev X2 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r1 (F := Ideal)) (X1 m' c)
abbrev X3 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r2 (F := Ideal)) (X2 m' c)
abbrev X4 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r3 (F := Ideal)) (X3 m' c)
abbrev X5 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r4 (F := Ideal)) (X4 m' c)
abbrev X6 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r5 (F := Ideal)) (X5 m' c)
abbrev X7 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r6 (F := Ideal)) (X6 m' c)
abbrev X8 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r7 (F := Ideal)) (X7 m' c)
abbrev X9 (m' : (ℓ : Loc Cert.ReferenceIdeal.nD Cert.ReferenceIdeal.τ Cert.ReferenceIdeal.sig) → Buf (Elt Ideal) ℓ) (c : Dev Cert.ReferenceIdeal.nD) : RV := after (Cert.ReferenceIdeal.Ops.r8 (F := Ideal)) (X8 m' c)

set_option maxHeartbeats 4000000 in
/-- From memories agreeing on the eight arguments the two programs leave the same result array: the buffers agree
    through the shared host operations; the first region's output is the feed-forward of the dispatched buffer, as the
    reference's two batched products are; the gathered rows are then the same; and the second region's output, read
    through the flattening of the token axes, is the reference's gate times those rows. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W13 m ρ c (Proc.devRef .tc Cert.KernelIdeal.main_v63) = after (Cert.ReferenceIdeal.HostRun.ops (F := Ideal)) (launchContents m' c) (Proc.devRef .tc Cert.ReferenceIdeal.main_v68) := by
  -- the shared host operations
  obtain ⟨e1_v7, e1_v11, e1_v14, e1_c_0, e1_arg5, e1_arg6, e1_arg7⟩ := step0 (Cert.KernelIdeal.Gen.W0 m ρ c) (X0 m' c) h0.symm h1.symm h2.symm h3.symm h4.symm h5.symm h6.symm h7.symm
  obtain ⟨e2_v7, e2_v11, e2_v15, e2_arg5, e2_arg6, e2_arg7⟩ := step1 _ _ e1_v7 e1_v11 e1_v14 e1_c_0 e1_arg5 e1_arg6 e1_arg7
  obtain ⟨e3_v7, e3_v11, e3_v15, e3_v22, e3_arg5, e3_arg6, e3_arg7⟩ := step2 _ _ e2_v7 e2_v11 e2_v15 e2_arg5 e2_arg6 e2_arg7
  obtain ⟨e4_v7, e4_v11, e4_v15, e4_v23, e4_arg5, e4_arg6, e4_arg7⟩ := step3 _ _ e3_v7 e3_v11 e3_v15 e3_v22 e3_arg5 e3_arg6 e3_arg7
  obtain ⟨e5_v7, e5_v11, e5_v15, e5_v23, e5_v24, e5_arg5, e5_arg6, e5_arg7⟩ := step4 _ _ e4_v7 e4_v11 e4_v15 e4_v23 e4_arg5 e4_arg6 e4_arg7
  obtain ⟨e6_v7, e6_v11, e6_v15, e6_v25, e6_arg5, e6_arg6, e6_arg7⟩ := step5 _ _ e5_v7 e5_v11 e5_v15 e5_v23 e5_v24 e5_arg5 e5_arg6 e5_arg7
  obtain ⟨e7_v7, e7_v11, e7_v30, e7_v33, e7_c_4, e7_arg5, e7_arg6, e7_arg7⟩ := step6 _ _ e6_v7 e6_v11 e6_v15 e6_v25 e6_arg5 e6_arg6 e6_arg7
  obtain ⟨e8_v7, e8_v11, e8_v34, e8_arg5, e8_arg6, e8_arg7⟩ := step7 _ _ e7_v7 e7_v11 e7_v30 e7_v33 e7_c_4 e7_arg5 e7_arg6 e7_arg7
  obtain ⟨f46, f11, f34, f5, f6, f7⟩ := step8 _ _ e8_v7 e8_v11 e8_v34 e8_arg5 e8_arg6 e8_arg7
  -- the first region: the feed-forward of the dispatched buffer
  have g47 : Cert.KernelIdeal.Gen.W10 m ρ c (Proc.devRef .tc Cert.KernelIdeal.main_v47) = Cert.Spec.ffn (X9 m' c (Proc.devRef .tc Cert.ReferenceIdeal.main_v45)) (X9 m' c (Proc.devRef .tc Cert.ReferenceIdeal.main_arg6)) (X9 m' c (Proc.devRef .tc Cert.ReferenceIdeal.main_arg7)) :=
    (Cert.KernelIdeal.Gen.W10_arr m ρ c 3).trans ((Cert.KernelIdeal.FfnValue.arr (Cert.KernelIdeal.Gen.V9 m ρ) c).trans (congr (congr (congrArg Cert.Spec.ffn f46) f6) f7))
  have g11 : Cert.KernelIdeal.Gen.W10 m ρ c (Proc.devRef .tc Cert.KernelIdeal.main_v11) = X9 m' c (Proc.devRef .tc Cert.ReferenceIdeal.main_v11) := (Cert.KernelIdeal.Gen.W10_of_ne m ρ c Cert.KernelIdeal.main_v11 (by decide)).trans f11
  have g34 : Cert.KernelIdeal.Gen.W10 m ρ c (Proc.devRef .tc Cert.KernelIdeal.main_v34) = X9 m' c (Proc.devRef .tc Cert.ReferenceIdeal.main_v34) := (Cert.KernelIdeal.Gen.W10_of_ne m ρ c Cert.KernelIdeal.main_v34 (by decide)).trans f34
  have g5 : Cert.KernelIdeal.Gen.W10 m ρ c (Proc.devRef .tc Cert.KernelIdeal.main_arg5) = X9 m' c (Proc.devRef .tc Cert.ReferenceIdeal.main_arg5) := (Cert.KernelIdeal.Gen.W10_of_ne m ρ c Cert.KernelIdeal.main_arg5 (by decide)).trans f5
  -- the second region and the last reshape
  have hK : Cert.KernelIdeal.Gen.W13 m ρ c (Proc.devRef .tc Cert.KernelIdeal.main_v63)
      = shapeCast Cert.KernelIdeal.S8x2048x1024 (Cert.Spec.gated (after (Cert.KernelIdeal.Gen.hostOps1 (F := Ideal)) (Cert.KernelIdeal.Gen.W10 m ρ c) (Proc.devRef .tc Cert.KernelIdeal.main_v60))
          (after (Cert.KernelIdeal.Gen.hostOps1 (F := Ideal)) (Cert.KernelIdeal.Gen.W10 m ρ c) (Proc.devRef .tc Cert.KernelIdeal.main_v59)) (after (Cert.KernelIdeal.Gen.hostOps1 (F := Ideal)) (Cert.KernelIdeal.Gen.W10 m ρ c) (Proc.devRef .tc Cert.KernelIdeal.main_v61)))
          Cert.KernelIdeal.Gen.shapeCasts_S16384x1024_S8x2048x1024 :=
    (k63 (Cert.KernelIdeal.Gen.W12 m ρ c)).trans (congrArg (fun z => shapeCast Cert.KernelIdeal.S8x2048x1024 z Cert.KernelIdeal.Gen.shapeCasts_S16384x1024_S8x2048x1024)
      ((Cert.KernelIdeal.Gen.W12_arr m ρ c 3).trans (Cert.KernelIdeal.ReceptValue.arr (Cert.KernelIdeal.Gen.V11 m ρ) c)))
  have hR : after (Cert.ReferenceIdeal.HostRun.ops (F := Ideal)) (launchContents m' c) (Proc.devRef .tc Cert.ReferenceIdeal.main_v68) = after (Cert.ReferenceIdeal.Ops.r9 (F := Ideal)) (X9 m' c) (Proc.devRef .tc Cert.ReferenceIdeal.main_v68) := by
    simp only [Cert.ReferenceIdeal.HostRun.ops, Cert.ReferenceIdeal.HostRun.after_append]
  rw [hK, hR, kernel_gate (Cert.KernelIdeal.Gen.W10 m ρ c), reference_gate (X9 m' c)]
  simp only [kMix, kRecept, kExperts, kSlot, rMix, rRecept, rDispatched, rKeyW, rValueW, rSlot]
  rw [g11, g5, g34, g47, rows_eq]

end Cert.Bridge

end
-- ==== Proof.lean ====
/-
  The certificate of a token-routed mixture of experts: a token-shift mix, a hash routing of every token to a slot of
  one of sixteen experts (tokens over an expert's capacity go to a dummy row), the experts' feed-forward with a squared
  rectifier, the combine by the same slots, and a receptance gate.

  The kernel program computes the feed-forward and the gated combine in two kernel regions, over blocks, with its
  products accumulated in a narrower float format's operands; the reference computes them as batched products on whole
  arrays. On the extended reals a change of float format is the identity and a blocked product is the product, so the
  two regions leave the same arrays as the reference's operations (Proof/FfnKernel.lean against Proof/FfnRef.lean,
  Proof/ReceptKernel.lean against Proof/ReceptRef.lean); everything around them — the mix, the routing, the scatter
  and the gather — is the same host operations on both sides and is carried along unopened (Proof/Prefix.lean,
  Proof/Chain.lean). No law here needs finiteness, so the precondition is never opened.

  The frames of the two kernel programs are the generated frame certificates; the reference's frame is its run
  (Proof/RefRun.lean) with the result dropped; the ideal pass rewrote nothing, so `preserves` is trivial.
-/
import proofs.«135018_j10591389352191_1_alg».proof.Defs
import proofs.«135018_j10591389352191_1_alg».proof.Proof.Gen.Kernel
import proofs.«135018_j10591389352191_1_alg».proof.Proof.Gen.Kernel.Frame
import proofs.«135018_j10591389352191_1_alg».proof.Proof.Gen.KernelIdeal
import proofs.«135018_j10591389352191_1_alg».proof.Proof.Gen.KernelIdeal.Frame
import proofs.«135018_j10591389352191_1_alg».proof.Proof.Gen.ReferenceIdeal
import proofs.«135018_j10591389352191_1_alg».proof.Proof.Gen.Pre_finite_inputs
import proofs.«135018_j10591389352191_1_alg».proof.Proof.KRun
import proofs.«135018_j10591389352191_1_alg».proof.Proof.RefRun
import proofs.«135018_j10591389352191_1_alg».proof.Proof.RefKept
import proofs.«135018_j10591389352191_1_alg».proof.Proof.Chain

noncomputable section

namespace Cert.Proof

open Idealize.ShloMosaic Idealize.ShloMosaic.TcCoe Idealize.SL.Sem Idealize.ShloMosaic.StableHlo

/-- The kernel program as printed terminates without a fault and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_reference : Cert.frame_ReferenceIdeal := fun m ρ _ =>
  (θ_run Cert.ReferenceIdeal.defs _ _).mono
    (fun _ h c => by
      obtain ⟨k0, k1, k2, k3, k4, k5, k6, k7⟩ := Cert.ReferenceIdeal.HostRun.kept (F := Ideal) (launchContents m c)
      exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7⟩)
    (Cert.ReferenceIdeal.HostRun.run (F := Ideal) m ρ)

/-- The ideal pass rewrote no operation. -/
theorem preserves : Cert.preserves_Kernel_KernelIdeal := trivial

/-- From memories agreeing on the arguments both idealized programs run, keep their arguments, and end with the same
    result array: the kernel program's at the last boundary's contents, which is the reference's fold. -/
theorem algebraic : Cert.algebraic_KernelIdeal_ReferenceIdeal := by
  intro m ρ m' ρ' _ hagree
  refine ⟨fun c => Cert.KernelIdeal.Gen.W13 m ρ c (Proc.devRef .tc Cert.KernelIdeal.main_v63),
    Cert.KernelIdeal.GenRun.run_named (F := Ideal) m ρ, ?_⟩
  refine (θ_run Cert.ReferenceIdeal.defs _ _).mono (fun _ h c => ?_) (Cert.ReferenceIdeal.HostRun.run (F := Ideal) m' ρ')
  obtain ⟨k0, k1, k2, k3, k4, k5, k6, k7⟩ := Cert.ReferenceIdeal.HostRun.kept (F := Ideal) (launchContents m' c)
  obtain ⟨a0, a1, a2, a3, a4, a5, a6, a7⟩ := hagree c
  exact ⟨(h c Cert.ReferenceIdeal.main_v68).trans (Cert.Bridge.result_eq m ρ m' c a0 a1 a2 a3 a4 a5 a6 a7).symm,
    (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
